-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x500000 : S_.BroadcastsInDim S2x500000 (![] : Fin 0 → Fin S2x500000.rank)
  reducesTo_S2x500000_S_d0_1 : S2x500000.ReducesTo [0, 1] S_

variable [Facts]

def fn_part1 {F : FTy → Type} [FloatOps F] (main_arg2 : IVec S2x500000 32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 4294867296#32
  let main_v24 : IVec S2x500000 32 := broadcastInDim S2x500000 ![] bcast_S_S2x500000 main_c_8
  let main_v25 : IVec S2x500000 1 := cmpi .sge main_arg2 main_v24
  let main_c_9 : IVec S_ 1 := constantI S_ 1 1#1
  let main_v26 : IVec S_ 1 := (fun x v => Host.reduce IntOp.andi x v reducesTo_S2x500000_S_d0_1 h_S_) main_v25 main_c_9
  let main_v27 : IVec S_ 1 := andi main_v23 main_v26
  let main_c_10 : IVec S_ 32 := constantI S_ 32 100000#32
  let main_v28 : IVec S2x500000 32 := broadcastInDim S2x500000 ![] bcast_S_S2x500000 main_c_10
  let main_v29 : IVec S2x500000 1 := cmpi .slt main_arg2 main_v28
  let main_c_11 : IVec S_ 1 := constantI S_ 1 1#1
  let main_v30 : IVec S_ 1 := (fun x v => Host.reduce IntOp.andi x v reducesTo_S2x500000_S_d0_1 h_S_) main_v29 main_c_11
  let main_v31 : IVec S_ 1 := andi main_v27 main_v30
  main_v31

def fn {F : FTy → Type} [FloatOps F] (main_arg0 : FVec F S100000x256 .f32) (main_arg1 : IVec S2x1600000 32) (main_arg2 : IVec S2x500000 32) (main_arg3 : FVec F S256x128 .f32) (main_arg4 : FVec F S128 .f32) (main_arg5 : FVec F S128x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg2 main_arg6 main_v13 main_v16
-- ==== Kernel.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S64x100000 : Shape := ⟨2, ![64, 100000]⟩
abbrev S1x500000 : Shape := ⟨2, ![1, 500000]⟩
abbrev S500000 : Shape := ⟨1, ![500000]⟩
abbrev S507904 : Shape := ⟨1, ![507904]⟩
abbrev S507904x1 : Shape := ⟨2, ![507904, 1]⟩
abbrev S1 : Shape := ⟨1, ![1]⟩
abbrev S1x1 : Shape := ⟨2, ![1, 1]⟩
abbrev S64x507904 : Shape := ⟨2, ![64, 507904]⟩
abbrev S1x507904 : Shape := ⟨2, ![1, 507904]⟩
abbrev S64x8192 : Shape := ⟨2, ![64, 8192]⟩
abbrev S1x8192 : Shape := ⟨2, ![1, 8192]⟩
abbrev S8192 : Shape := ⟨1, ![8192]⟩

abbrev nBuf : Space → Nat
  | .hbm => 190
  | .vmem => 16
  | .smem => 0
  | _ => 0

abbrev hbmTy0_0 (i : Nat) : BufTy := match i % 128 with
  | 0 => ⟨S100000x256, .f32⟩
  | 1 => ⟨S2x1600000, .i32⟩
  | 2 => ⟨S2x500000, .i32⟩
  | 3 => ⟨S256x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x256, .f32⟩

abbrev hbmTy0_1 (i : Nat) : BufTy := match i % 128 with
  | 0 => ⟨S100000x64, .f32⟩
  | 1 => ⟨S100000x64, .f32⟩
  | 2 => ⟨S64x100000, .f32⟩
  | 3 => ⟨S1x500000, .i32⟩
  | 4 => ⟨S500000, .i32⟩
  | 5 => ⟨S1x500000, .i32⟩
  | 6 => ⟨S500000, .i32⟩
  | 7 => ⟨S_, .i32⟩
  | 8 => ⟨S_, .i32⟩
  | 9 => ⟨S507904, .i32⟩
  | 10 => ⟨S_, .i32⟩
  | 11 => ⟨S_, .i32⟩
  | 12 => ⟨S507904, .i32⟩
  | 13 => ⟨S_, .i32⟩
  | 14 => ⟨S507904, .i32⟩
  | 15 => ⟨S507904, .i1⟩
  | 16 => ⟨S_, .i32⟩
  | 17 => ⟨S507904, .i32⟩
  | 18 => ⟨S507904, .i32⟩
  | 19 => ⟨S507904, .i32⟩
  | 20 => ⟨S507904x1, .i32⟩
  | 21 => ⟨S1, .i32⟩
  | 22 => ⟨S_, .i32⟩
  | 23 => ⟨S507904x1, .i32⟩
  | 24 => ⟨S507904x1, .i1⟩
  | 25 => ⟨S1x1, .i32⟩
  | 26 => ⟨S507904x1, .i32⟩
  | 27 => ⟨S507904x1, .i1⟩
  | 28 => ⟨S507904x1, .i1⟩
  | 29 => ⟨S_, .i1⟩
  | 30 => ⟨S507904, .i1⟩
  | 31 => ⟨S64x507904, .f32⟩
  | 32 => ⟨S64x507904, .i1⟩
  | 33 => ⟨S_, .f32⟩
  | 34 => ⟨S64x507904, .f32⟩
  | 35 => ⟨S64x507904, .f32⟩
  | 36 => ⟨S_, .i32⟩
  | 37 => ⟨S507904, .i32⟩
  | 38 => ⟨S507904, .i1⟩
  | 39 => ⟨S_, .i32⟩
  | 40 => ⟨S507904, .i32⟩
  | 41 => ⟨S507904, .i32⟩
  | 42 => ⟨S507904, .i32⟩
  | 43 => ⟨S507904x1, .i32⟩
  | 44 => ⟨S1, .i32⟩
  | 45 => ⟨S_, .i32⟩
  | 46 => ⟨S507904x1, .i32⟩
  | 47 => ⟨S507904x1, .i1⟩
  | 48 => ⟨S1x1, .i32⟩
  | 49 => ⟨S507904x1, .i32⟩
  | 50 => ⟨S507904x1, .i1⟩
  | 51 => ⟨S507904x1, .i1⟩
  | 52 => ⟨S_, .i1⟩
  | 53 => ⟨S507904, .i1⟩
  | 54 => ⟨S64x507904, .f32⟩
  | 55 => ⟨S64x507904, .i1⟩
  | 56 => ⟨S_, .f32⟩
  | 57 => ⟨S64x507904, .f32⟩
  | 58 => ⟨S64x507904, .f32⟩
  | 59 => ⟨S1x507904, .f32⟩
  | 60 => ⟨S1x500000, .f32⟩
  | 61 => ⟨S500000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | .local _ .vmem, ⟨10, _⟩ => ⟨S64x8192, .f32⟩
  | .local _ .vmem, ⟨11, _⟩ => ⟨S64x8192, .f32⟩
  | .local _ .vmem, ⟨12, _⟩ => ⟨S64x8192, .f32⟩
  | .local _ .vmem, ⟨13, _⟩ => ⟨S64x8192, .f32⟩
  | .local _ .vmem, ⟨14, _⟩ => ⟨S1x8192, .f32⟩
  | .local _ .vmem, ⟨15, _⟩ => ⟨S1x8192, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_20 : Ref sig .tc := ⟨.hbm, 135, rfl⟩
abbrev main_call3_v0 : Ref sig .tc := ⟨.hbm, 136, rfl⟩
abbrev main_v100 : Ref sig .tc := ⟨.hbm, 137, rfl⟩
abbrev main_c_21 : Ref sig .tc := ⟨.hbm, 138, rfl⟩
abbrev main_call4_v0 : Ref sig .tc := ⟨.hbm, 139, rfl⟩
abbrev main_v101 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v102 : Ref sig .tc := ⟨.hbm, 163, rfl⟩
abbrev main_call6_c : Ref sig .tc := ⟨.hbm, 164, rfl⟩
abbrev main_call6_v0 : Ref sig .tc := ⟨.hbm, 165, rfl⟩
abbrev main_call6_v1 : Ref sig .tc := ⟨.hbm, 166, rfl⟩
abbrev main_call6_c_0 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_call6_v5 : Ref sig .tc := ⟨.hbm, 171, rfl⟩
abbrev main_call6_c_1 : Ref sig .tc := ⟨.hbm, 172, rfl⟩
abbrev main_call6_c_2 : Ref sig .tc := ⟨.hbm, 173, rfl⟩
abbrev main_call6_v6 : Ref sig .tc := ⟨.hbm, 174, rfl⟩
abbrev main_call6_v7 : Ref sig .tc := ⟨.hbm, 175, rfl⟩
abbrev main_call6_v8 : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_call6_c_3 : Ref sig .tc := ⟨.hbm, 180, rfl⟩
abbrev main_call6_v12 : Ref sig .tc := ⟨.hbm, 181, rfl⟩
abbrev main_call6_v13 : Ref sig .tc := ⟨.hbm, 182, rfl⟩
abbrev main_call6_v14 : Ref sig .tc := ⟨.hbm, 183, rfl⟩
abbrev main_call6_cst : Ref sig .tc := ⟨.hbm, 184, rfl⟩
abbrev main_call6_v15 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![62], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S100000x64_S64x100000_1_0 : S100000x64.Transposes [1, 0] S64x100000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  pads_S500000_S507904_079040 : S500000.Pads (![0] : Fin 1 → Nat) ![7904] ![0] S507904
  h_S_ : 0 < S_.numel
  bcast_S_S507904 : S_.BroadcastsInDim S507904 (![] : Fin 0 → Fin S507904.rank)
  bcast_S507904_S507904x1_0 : S507904.BroadcastsInDim S507904x1 (![0] : Fin 1 → Fin S507904x1.rank)
  bcast_S_S507904x1 : S_.BroadcastsInDim S507904x1 (![] : Fin 0 → Fin S507904x1.rank)
  bcast_S1_S1x1_1 : S1.BroadcastsInDim S1x1 (![1] : Fin 1 → Fin S1x1.rank)
  bcast_S1x1_S507904x1_0_1 : S1x1.BroadcastsInDim S507904x1 (![0, 1] : Fin 2 → Fin S507904x1.rank)
  reducesTo_S507904x1_S507904_d1 : S507904x1.ReducesTo [1] S507904
  bcast_S507904_S64x507904_1 : S507904.BroadcastsInDim S64x507904 (![1] : Fin 1 → Fin S64x507904.rank)
  bcast_S_S64x507904 : S_.BroadcastsInDim S64x507904 (![] : Fin 0 → Fin S64x507904.rank)
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S8192 : S64x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  slices_S1x507904_S1x500000_0_0 : S1x507904.Slices ![0, 0] S1x500000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S64x100000_S507904x1_S64x507904_0_1_n_n_1_1_641_wf : GatherDims.WF S64x100000 S507904x1 S64x507904 [0] [1] [] [1] [] 1 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x8192.size a ≤ S64x507904.size a
  hwx2_0 : ∀ i : grid2.Coords, EltTy.bits .f32 = 32 ∨ (Rect.block (s := S64x507904) S64x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x8192.size a ≤ S64x507904.size a
  hwx2_1 : ∀ i : grid2.Coords, EltTy.bits .f32 = 32 ∨ (Rect.block (s := S64x507904) S64x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8192.size a ≤ S1x507904.size a
  hwx2_2 : ∀ i : grid2.Coords, EltTy.bits .f32 = 32 ∨ (Rect.block (s := S1x507904) S1x8192.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S64x100000_S507904x1_S64x507904_0_1_n_n_1_1_641 : GatherDims S64x100000 S507904x1 S64x507904 where
  offsetDims := [0]
  collapsedSliceDims := [1]
  operandBatchingDims := []
  startIndicesBatchingDims := []
  startIndexMap := [1]
  indexVectorDim := 1
  sliceSizes := ![64, 1]
  wf := gather_S64x100000_S507904x1_S64x507904_0_1_n_n_1_1_641_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v102) S64x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S64x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v104) S1x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 155
  | .vmem => 0
  | .smem => 0
  | _ => 0

abbrev hbmTy0_0 (i : Nat) : BufTy := match i % 128 with
  | 0 => ⟨S100000x256, .f32⟩
  | 1 => ⟨S2x1600000, .i32⟩
  | 2 => ⟨S2x500000, .i32⟩
  | 3 => ⟨S256x128, .f32⟩
  | 4 => ⟨S128, .f32⟩
  | 5 => ⟨S128x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000, .i32⟩
  | 71 => ⟨S1x1600000, .i32⟩
  | 72 => ⟨S1600000, .i32⟩
  | 73 => ⟨S1700000, .i32⟩
  | 74 => ⟨S1x1600000, .i32⟩
  | 75 => ⟨S1600000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x256, .f32⟩

abbrev hbmTy0_1 (i : Nat) : BufTy := match i % 128 with
  | 0 => ⟨S100000x64, .f32⟩
  | 1 => ⟨S100000x64, .f32⟩
  | 2 => ⟨S1x500000, .i32⟩
  | 3 => ⟨S500000, .i32⟩
  | 4 => ⟨S1x500000, .i32⟩
  | 5 => ⟨S500000, .i32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x64, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x64, .f32⟩
  | 24 => ⟨S500000x64, .f32⟩
  | 25 => ⟨S_, .f32⟩
  | 26 => ⟨S500000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_20 : Ref sig .tc := ⟨.hbm, 134, rfl⟩
abbrev main_v99 : Ref sig .tc := ⟨.hbm, 135, rfl⟩
abbrev main_v100 : Ref sig .tc := ⟨.hbm, 136, rfl⟩
abbrev main_c_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S500000x1_S500000x64_1_0_n_n_0_1_164_wf : GatherDims.WF S100000x64 S500000x1 S500000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.Spec.lean ====
/-
  The mathematics both programs are compared through.

  A two-layer graph convolution gives every one of the 100000 nodes a row `z[n, ·]` of 64 numbers; the result asked
  for is, for each of the 500000 label pairs `(s, t)`, the inner product `∑ d, z[s, d] * z[t, d]`.

  * `mm256`, `mm128`: a matrix product written entry by entry as a finite sum over the contracted axis. The kernel
    computes it tile by tile (2000 rows at a time, the whole contracted axis in one step); the reference in one
    `dot_general`. At exact arithmetic both are this sum.
  * `dec`: the kernel's decoder on feature-major operands `a, b : 64 × 507904`: column `j` of the result is
    `∑ d, a[d, j] * b[d, j]`.
  * `kernelScores z e`: what the kernel's host code around the decoder does with `z` and the label pairs `e`:
    transpose `z`, pad each row of `e` with 7904 zeros, read the padded node numbers (a negative one counted from
    the end) as columns of the transpose — a column whose number falls outside `0 … 99999` is filled with a
    not-a-number pattern —, decode, and keep the first 500000 entries.
  * `referenceScores z e`: what the reference does: read rows `s` and `t` of `z` (a negative number counted from
    the end, then clamped into range), multiply entry by entry, sum over the 64 features.

  The two agree wherever every label is a valid node number, `-100000 ≤ e < 100000` (module `Tail`).
-/
import proofs.«430394_j62371515072862_1_alg».proof.KernelIdeal
import proofs.«430394_j62371515072862_1_alg».proof.ReferenceIdeal
import Idealize.ShloMosaic.PureOps.Ideal
import Idealize.ShloMosaic.Lib.ValueIdx

noncomputable section

namespace Cert.Link

open Idealize.ShloMosaic Idealize.ShloMosaic.TcCoe
open Cert.KernelIdeal

variable [hK : Cert.KernelIdeal.Facts] [hR : Cert.ReferenceIdeal.Facts]
open Cert.KernelIdeal.Facts₀

/-- `x · w` for `x : 100000 × 256`, `w : 256 × 128`, entry by entry. -/
def mm256 (x : FVec Ideal S100000x256 .f32) (w : FVec Ideal S256x128 .f32) : FVec Ideal S100000x128 .f32 :=
  fun i => ∑ k : Fin 256, x (ValueIdx.ix2 (i 0) k) * w (ValueIdx.ix2 k (i 1))

/-- `x · w` for `x : 100000 × 128`, `w : 128 × 64`, entry by entry. -/
def mm128 (x : FVec Ideal S100000x128 .f32) (w : FVec Ideal S128x64 .f32) : FVec Ideal S100000x64 .f32 :=
  fun i => ∑ k : Fin 128, x (ValueIdx.ix2 (i 0) k) * w (ValueIdx.ix2 k (i 1))

/-- The decoder on feature-major operands: entry `(0, j)` is `∑ d, a[d, j] * b[d, j]`. -/
def dec (a b : FVec Ideal S64x507904 .f32) : FVec Ideal S1x507904 .f32 :=
  fun i => ∑ d : Fin 64, a (ValueIdx.ix2 d (i 1)) * b (ValueIdx.ix2 d (i 1))

/-- Row `0` of the label pairs (the sources) as a vector of 500000 node numbers. -/
def lblRow0 (e : IVec S2x500000 32) : IVec S500000 32 :=
  shapeCast S500000 (extractStridedSlice S1x500000 ![0, 0] e slices_S2x500000_S1x500000_0_0) shapeCasts_S1x500000_S500000

/-- Row `1` of the label pairs (the targets). -/
def lblRow1 (e : IVec S2x500000 32) : IVec S500000 32 :=
  shapeCast S500000 (extractStridedSlice S1x500000 ![1, 0] e slices_S2x500000_S1x500000_1_0) shapeCasts_S1x500000_S500000

/-- 500000 node numbers followed by 7904 zeros. -/
def padded (v : IVec S500000 32) : IVec S507904 32 :=
  pad S507904 ![0] ![7904] ![0] v (id (constantI S_ 32 0#32)) pads_S500000_S507904_079040 h_S_

/-- A negative node number counted from the end: `v + 100000` where `v < 0`, else `v` (507904 of them). -/
def wrapPadded (v : IVec S507904 32) : IVec S507904 32 :=
  select (cmpi .slt v (broadcastInDim S507904 ![] bcast_S_S507904 (constantI S_ 32 0#32)))
    (addi v (broadcastInDim S507904 ![] bcast_S_S507904 (constantI S_ 32 100000#32))) v

/-- The wrapped node numbers as a column `507904 × 1` of start indices. -/
def startCol (v : IVec S507904 32) : IVec S507904x1 32 :=
  broadcastInDim S507904x1 ![0] bcast_S507904_S507904x1_0 (wrapPadded v)

/-- Which of the 507904 start indices lie in `0 … 99999`. -/
def inRange (v : IVec S507904 32) : IVec S507904 1 :=
  Host.reduce IntOp.andi
    (andi (cmpi .sge (startCol v) (broadcastInDim S507904x1 ![] bcast_S_S507904x1 (constantI S_ 32 0#32)))
      (cmpi .sle (startCol v) (broadcastInDim S507904x1 ![0, 1] bcast_S1x1_S507904x1_0_1
        (broadcastInDim S1x1 ![1] bcast_S1_S1x1_1 (constantI S1 32 99999#32)))))
    (constantI S_ 1 1#1) reducesTo_S507904x1_S507904_d1 h_S_

/-- Columns of the feature-major embeddings at the given node numbers; a column whose number is out of range is
    filled with the not-a-number pattern. -/
def takeCols (zt : FVec Ideal S64x100000 .f32) (v : IVec S507904 32) : FVec Ideal S64x507904 .f32 :=
  select (broadcastInDim S64x507904 ![1] bcast_S507904_S64x507904_1 (inRange v))
    (Host.gather gather_S64x100000_S507904x1_S64x507904_0_1_n_n_1_1_641 zt (startCol v))
    (broadcastInDim S64x507904 ![] bcast_S_S64x507904 (constant S_ .f32 0x7FC00000#32))

/-- The embeddings feature-major. -/
def featMajor (z : FVec Ideal S100000x64 .f32) : FVec Ideal S64x100000 .f32 :=
  transpose S64x100000 [1, 0] z transposes_S100000x64_S64x100000_1_0

/-- The kernel's scores from the embeddings `z` and the label pairs `e`. -/
def kernelScores (z : FVec Ideal S100000x64 .f32) (e : IVec S2x500000 32) : FVec Ideal S500000 .f32 :=
  shapeCast S500000
    (extractStridedSlice S1x500000 ![0, 0]
      (dec (takeCols (featMajor z) (padded (lblRow0 e))) (takeCols (featMajor z) (padded (lblRow1 e))))
      slices_S1x507904_S1x500000_0_0)
    shapeCasts_S1x500000_S500000

/-- A negative node number counted from the end (500000 of them). -/
def wrapLbl (v : IVec S500000 32) : IVec S500000 32 :=
  select (cmpi .slt v (broadcastInDim S500000 ![] Cert.ReferenceIdeal.Facts₀.bcast_S_S500000 (constantI S_ 32 0#32)))
    (addi v (broadcastInDim S500000 ![] Cert.ReferenceIdeal.Facts₀.bcast_S_S500000 (constantI S_ 32 100000#32))) v

/-- Rows of the embeddings at the given node numbers (a start index outside the array is clamped into it). -/
def takeRows (z : FVec Ideal S100000x64 .f32) (v : IVec S500000 32) : FVec Ideal Cert.ReferenceIdeal.S500000x64 .f32 :=
  Host.gather Cert.ReferenceIdeal.gather_S100000x64_S500000x1_S500000x64_1_0_n_n_0_1_164 z
    (broadcastInDim Cert.ReferenceIdeal.S500000x1 ![0] Cert.ReferenceIdeal.Facts₀.bcast_S500000_S500000x1_0 (wrapLbl v))

/-- The reference's scores from the embeddings `z` and the label pairs `e`. -/
def referenceScores (z : FVec Ideal S100000x64 .f32) (e : IVec S2x500000 32) : FVec Ideal S500000 .f32 :=
  Host.reduceAdd (mulf (takeRows z (lblRow0 e)) (takeRows z (lblRow1 e))) (constant S_ .f32 0x00000000#32)
    Cert.ReferenceIdeal.Facts₀.reducesTo_S500000x64_S500000_d1 h_S_

end Cert.Link

end
-- ==== Proof.Gcn.lean ====
/-
  The graph convolution both programs share, as named functions.

  With `src, dst` the 1700000 edge ends (the 1600000 given edges followed by one self-loop per node), a node's degree
  counts the edges that end in it, `degInv` is `deg^(-1/2)` where the degree is positive and `0` elsewhere, an
  edge's weight is `degInv[src] * degInv[dst]`, and a layer sends `h` to
  `out[n, ·] = ∑ over edges e with dst e = n of h[src e, ·] * weight e  +  b`.
  A negative node number is counted from the end (`wrapE`), as array indexing does.
  Two layers with a `max(·, 0)` between them give the embeddings `embed`.
  Nothing here is opened by the proof: both programs apply these same functions, and only the two dense
  products (`mm256`, `mm128`) are computed differently.
-/
import proofs.«430394_j62371515072862_1_alg».proof.Proof.Spec

noncomputable section

namespace Cert.Link

open Idealize.ShloMosaic Idealize.ShloMosaic.TcCoe
open Cert.KernelIdeal

variable {F : FTy → Type} [FloatOps F]
variable [hK : Cert.KernelIdeal.Facts]
open Cert.KernelIdeal.Facts₀

/-- 1600000 node numbers followed by 100000 more, as one vector of 1700000. -/
def catE (a : IVec S1600000 32) (b : IVec S100000 32) : IVec S1700000 32 :=
  concatenate S1700000 0 [⟨S1600000, a⟩, ⟨S100000, b⟩] concatenates_S1600000_S100000_S1700000_d0

theorem catE_eq (a : IVec S1600000 32) (b : IVec S100000 32) (h : Shape.Concatenates [S1600000, S100000] S1700000 0) :
    concatenate S1700000 0 [⟨S1600000, a⟩, ⟨S100000, b⟩] h = catE a b := rfl

/-- The edges' sources: row 0 of the edge list, then the nodes themselves. -/
def srcs (ei : IVec S2x1600000 32) : IVec S1700000 32 :=
  catE (shapeCast S1600000 (extractStridedSlice S1x1600000 ![0, 0] ei slices_S2x1600000_S1x1600000_0_0) shapeCasts_S1x1600000_S1600000)
    (iotaInDim S100000 32 0)

/-- The edges' targets: row 1 of the edge list, then the nodes themselves. -/
def dsts (ei : IVec S2x1600000 32) : IVec S1700000 32 :=
  catE (shapeCast S1600000 (extractStridedSlice S1x1600000 ![1, 0] ei slices_S2x1600000_S1x1600000_1_0) shapeCasts_S1x1600000_S1600000)
    (iotaInDim S100000 32 0)

/-- A negative node number counted from the end. -/
def wrapE (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- Node numbers as a column of start indices. -/
def startE (v : IVec S1700000 32) : IVec S1700000x1 32 :=
  broadcastInDim S1700000x1 ![0] bcast_S1700000_S1700000x1_0 v

/-- How many edges end in each node. -/
def degree (dst : IVec S1700000 32) : FVec F S100000 .f32 :=
  Host.scatterAdd scatter_S100000_S1700000x1_S1700000_n_0_0_1
    (broadcastInDim S100000 ![] bcast_S_S100000 (constant S_ .f32 0x00000000#32)) (startE dst)
    (broadcastInDim S1700000 ![] bcast_S_S1700000 (constant S_ .f32 0x3F800000#32))

/-- `deg^(-1/2)` where the degree is positive, `0` elsewhere. -/
def degInv (dst : IVec S1700000 32) : FVec F S100000 .f32 :=
  select (cmpf (F := F) .ogt (degree dst) (broadcastInDim S100000 ![] bcast_S_S100000 (constant S_ .f32 0x00000000#32)))
    (Host.rsqrt (degree dst))
    (broadcastInDim S100000 ![] bcast_S_S100000 (id (constant S_ .f32 0x00000000#32)))

/-- An edge's weight `d[src] * d[dst]` for a per-node vector `d`. -/
def edgeNormOf (d : FVec F S100000 .f32) (src dst : IVec S1700000 32) : FVec F S1700000 .f32 :=
  mulf (Host.gather gather_S100000_S1700000x1_S1700000_n_0_n_n_0_1_1 d (startE (wrapE src)))
    (Host.gather gather_S100000_S1700000x1_S1700000_n_0_n_n_0_1_1 d (startE (wrapE dst)))

/-- An edge's weight `degInv[src] * degInv[dst]`. -/
def edgeNorm (src dst : IVec S1700000 32) : FVec F S1700000 .f32 :=
  edgeNormOf (degInv (F := F) dst) src dst

/-- One layer's aggregation at width 128: gather the rows at the sources, weigh, add up at the targets, add the bias. -/
def conv128 (h : FVec F S100000x128 .f32) (src dst : IVec S1700000 32) (nrm : FVec F S1700000 .f32) (b : FVec F S128 .f32) :
    FVec F S100000x128 .f32 :=
  addf
    (Host.scatterAdd scatter_S100000x128_S1700000x1_S1700000x128_1_0_0_1
      (broadcastInDim S100000x128 ![] bcast_S_S100000x128 (constant S_ .f32 0x00000000#32)) (startE dst)
      (mulf (Host.gather gather_S100000x128_S1700000x1_S1700000x128_1_0_n_n_0_1_1128 h (startE (wrapE src)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- `max(·, 0)` entry by entry. -/
def relu128 (a : FVec F S100000x128 .f32) : FVec F S100000x128 .f32 :=
  maximumf a (broadcastInDim S100000x128 ![] bcast_S_S100000x128 (constant S_ .f32 0x00000000#32))

/-- One layer's aggregation at width 64. -/
def conv64 (h : FVec F S100000x64 .f32) (src dst : IVec S1700000 32) (nrm : FVec F S1700000 .f32) (b : FVec F S64 .f32) :
    FVec F S100000x64 .f32 :=
  addf
    (Host.scatterAdd scatter_S100000x64_S1700000x1_S1700000x64_1_0_0_1
      (broadcastInDim S100000x64 ![] bcast_S_S100000x64 (constant S_ .f32 0x00000000#32)) (startE dst)
      (mulf (Host.gather gather_S100000x64_S1700000x1_S1700000x64_1_0_n_n_0_1_164 h (startE (wrapE src)))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- The hidden layer: the first convolution of the projected features, then `max(·, 0)`. -/
def hidden (x : FVec Ideal S100000x256 .f32) (ei : IVec S2x1600000 32) (w1 : FVec Ideal S256x128 .f32) (b1 : FVec Ideal S128 .f32) :
    FVec Ideal S100000x128 .f32 :=
  relu128 (conv128 (mm256 x w1) (srcs ei) (dsts ei) (edgeNorm (srcs ei) (dsts ei)) b1)

/-- The node embeddings: the second convolution of the projected hidden layer. -/
def embed (x : FVec Ideal S100000x256 .f32) (ei : IVec S2x1600000 32) (w1 : FVec Ideal S256x128 .f32) (b1 : FVec Ideal S128 .f32)
    (w2 : FVec Ideal S128x64 .f32) (b2 : FVec Ideal S64 .f32) : FVec Ideal S100000x64 .f32 :=
  conv64 (mm128 (hidden x ei w1 b1) w2) (srcs ei) (dsts ei) (edgeNorm (srcs ei) (dsts ei)) b2

end Cert.Link

end
-- ==== Proof.Matmul0.lean ====
/-
  The first projection. The kernel walks the 100000 rows of `x` in 50 tiles of 2000 rows; at tile `t` it multiplies
  rows `2000 t … 2000 t + 1999` of `x` by the whole of `w` and writes rows `2000 t …` of the result. The tiles cover the
  result array, so after the last tile the array holds `x · w` (`mm256`), entry by entry.
-/
import proofs.«430394_j62371515072862_1_alg».proof.Proof.Gen.KernelIdeal.Frame
import proofs.«430394_j62371515072862_1_alg».proof.Proof.Spec
import Idealize.ShloMosaic.Lib.Pipeline.Value
import Idealize.ShloMosaic.PureOps.Ideal.Laws

noncomputable section

namespace Cert.Link

open Idealize.ShloMosaic Idealize.ShloMosaic.TcCoe Idealize.SL.Sem
open Cert.KernelIdeal Cert.KernelIdeal.Gen

namespace Matmul0

/-- On the row axis the left operand's index is the output's row. -/
theorem lhs0_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- On the contracted axis it is the contraction position. -/
theorem lhs0_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's index on its contracted axis is the contraction position. -/
theorem rhs0_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- On the column axis it is the output's column. -/
theorem rhs0_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The tile's product at entry `(p, q)`: the sum over the 256 contracted positions of the products of row `p` of the
    left block and column `q` of the right block (a change of float format is the identity on extended reals). -/
theorem pay0_apply (x0 : Vec Ideal S2000x256 .f32) (x1 : Vec Ideal S256x128 .f32) (p : Fin 2000) (q : Fin 128) :
    (k0_pay1 (F := Ideal) x0 x1) (ValueIdx.ix2 p q) = ∑ k : Fin 256, x0 (ValueIdx.ix2 p k) * x1 (ValueIdx.ix2 k q) := by
  unfold k0_pay1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ValueIdx.ix2 p q) ((ValueIdx.contrEquiv1 dot_S2000x256_S256x128_S2000x128_1_0_0_1_n_n 256 rfl rfl).symm k) = ValueIdx.ix2 p k := funext fun a => Fin.ext (by
    match a with
    | ⟨0, _⟩ => exact lhs0_0 _ _
    | ⟨1, _⟩ => exact (lhs0_1 _ _).trans hk)
  have er : dot_S2000x256_S256x128_S2000x128_1_0_0_1_n_n.rhsIdx (ValueIdx.ix2 p q) ((ValueIdx.contrEquiv1 dot_S2000x256_S256x128_S2000x128_1_0_0_1_n_n 256 rfl rfl).symm k) = ValueIdx.ix2 k q := funext fun a => Fin.ext (by
    match a with
    | ⟨0, _⟩ => exact (rhs0_0 _ _).trans hk
    | ⟨1, _⟩ => exact rhs0_1 _ _)
  rw [ValueIdx.truncf_apply, ValueIdx.truncf_apply, el, er]

theorem zeros2 : (![0, 0] : Fin 2 → Nat) = fun _ => 0 := funext fun a => by fin_cases a <;> rfl

/-- The printed index maps over the 50 tiles: the left operand and the result move down by one block of rows per
    tile, the right operand stays at its one block. -/
theorem tile_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One tile, over plain blocks: if the left block is rows `2000 n … 2000 n + 1999` of `A` and the right block is `B`,
    the tile's product at `j` is the entry of `A · B` in row `2000 n + j₀` and column `j₁`. -/
theorem tile0 (A : FVec Ideal S100000x256 .f32) (B : FVec Ideal S256x128 .f32)
    (x0 : Vec Ideal S2000x256 .f32) (x1 : Vec Ideal S256x128 .f32) (n : Nat) (hn : n < 50)
    (h0 : ∀ (p : Fin 2000) (k : Fin 256), x0 (ValueIdx.ix2 p k) = A (ValueIdx.ix2 (⟨n * 2000 + p.val, by omega⟩ : Fin 100000) k))
    (h1 : ∀ (k : Fin 256) (q : Fin 128), x1 (ValueIdx.ix2 k q) = B (ValueIdx.ix2 k q))
    (j : S2000x128.Idx) (i : S100000x128.Idx) (hi0 : (i 0).val = n * 2000 + (j 0).val) (hi1 : (i 1).val = (j 1).val) :
    k0_pay1 (F := Ideal) x0 x1 j = mm256 A B i := by
  obtain ⟨p, q, rfl⟩ : ∃ (p : Fin 2000) (q : Fin 128), j = ValueIdx.ix2 p q := ⟨j 0, j 1, ValueIdx.eq_ix2 j⟩
  rw [pay0_apply]
  unfold mm256
  refine Finset.sum_congr rfl fun k _ => ?_
  rw [h0, h1]
  have ea : (⟨n * 2000 + p.val, by omega⟩ : Fin 100000) = i 0 := Fin.ext hi0.symm
  have eb : q = i 1 := Fin.ext hi1.symm
  rw [ea, eb]

/-- What tile `t` writes back is block `t` of `A · B`, `A` and `B` the two input arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (mm256 (V c main_arg0) (V c main_arg3)) := by
  show (cfg0.win 2).cut (grid0.coords t) ((dat0 V c).after 2 t) = _
  rw [after0_2]
  unfold out0_2
  rw [View.canon_unit_zero zeros2]
  simp only [View.ld_unit_zero (S := S2000x256) zeros2, View.ld_unit_zero (S := S256x128) zeros2]
  obtain ⟨e0, e1, e2, e3, e4, e5⟩ := tile_index0 t
  have hN : cfg0.N = 50 := N_0
  have ht : t.val < 50 := hN ▸ t.isLt
  funext j
  refine tile0 (V c main_arg0) (V c main_arg3) (iblk0 V c 0 t) (iblk0 V c 1 t) t.val ht ?_ ?_ j _ ?_ ?_
  · intro p k
    show V c main_arg0 (((cfg0.win 0).blk t).view.emb (ValueIdx.ix2 p k)) = V c main_arg0 _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · intro k q
    show V c main_arg3 (((cfg0.win 1).blk t).view.emb (ValueIdx.ix2 k q)) = V c main_arg3 _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show win0_2.index t (0 : Fin 2) * 2000 + 1 * (j 0).val = t.val * 2000 + (j 0).val; omega
  · show win0_2.index t (1 : Fin 2) * 128 + 1 * (j 1).val = (j 1).val; omega

/-- An entry of the result array lies in tile `t`'s block iff each coordinate lies in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every entry of the result array is in some tile's block: row `r` is in tile `r / 2000`. -/
theorem cover0 (i : S100000x128.Idx) : ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  have ht : (i 0).val / 2000 < cfg0.N := by rw [hN]; omega
  refine ⟨⟨(i 0).val / 2000, ht⟩, flush0_2 _, ?_⟩
  obtain ⟨e0, e1, e2, e3, e4, e5⟩ := tile_index0 ⟨(i 0).val / 2000, ht⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

end Matmul0

/-- After region 0 its output array is the matrix product of its two input arrays as the region found them. -/
theorem region0_array (V : (c : Dev nD) → (b : Ref sig .tc) → Buf (Elt Ideal) ((c : Thread nD τ).loc b)) (c : Dev nD) :
    (dat0 (F := Ideal) V c).arrAt 2 cfg0.N = mm256 (V c main_arg0) (V c main_arg3) :=
  (dat0 (F := Ideal) V c).arrAt_eq_of_cover 2 (mm256 (V c main_arg0) (V c main_arg3)) (fun t _ => Matmul0.flushed0_eq V c t) Matmul0.cover0

end Cert.Link

end
-- ==== Proof.FoldA.lean ====
/-
  The kernel program's buffers at the first region's boundaries, read back to the launch memory.
  Before the first dense product the host code has built the edge ends with their self-loops (`srcs`, `dsts`) and
  the edge weights (`edgeNorm`); the region then leaves `x · w1` in its output array and every other buffer alone.
-/
import proofs.«430394_j62371515072862_1_alg».proof.Proof.Gen.KernelIdeal.Frame
import proofs.«430394_j62371515072862_1_alg».proof.Proof.Gcn
import proofs.«430394_j62371515072862_1_alg».proof.Proof.Matmul0
import Idealize.ShloMosaic.Lib.StableHlo.Run

set_option maxRecDepth 16384

noncomputable section

namespace Cert.Link

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Read a buffer through a stretch of host operations in one simp pass: each operation's result at its own buffer is
    its function of its operands' contents, at any other buffer what was there; a two-piece concatenate is named
    (`catE`) so that the pass goes on reading inside its pieces; the typed-reference casts of outlined calls are cleared. -/
macro "fold_read" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      catE_eq, TRef.ofBuf, TRef.toBuf, cast_eq]))
macro "closes" : tactic => `(tactic| (first | done | rfl))

/-! ## Up to the first region -/

theorem W3_arg0 : W3 m ρ c (Proc.devRef .tc main_arg0) = m ((c : Thread nD τ).loc main_arg0) := by
  simp only [W3, W2, W1]; fold_read; closes
theorem W3_arg1 : W3 m ρ c (Proc.devRef .tc main_arg1) = m ((c : Thread nD τ).loc main_arg1) := by
  simp only [W3, W2, W1]; fold_read; closes
theorem W3_arg2 : W3 m ρ c (Proc.devRef .tc main_arg2) = m ((c : Thread nD τ).loc main_arg2) := by
  simp only [W3, W2, W1]; fold_read; closes
theorem W3_arg3 : W3 m ρ c (Proc.devRef .tc main_arg3) = m ((c : Thread nD τ).loc main_arg3) := by
  simp only [W3, W2, W1]; fold_read; closes
theorem W3_arg4 : W3 m ρ c (Proc.devRef .tc main_arg4) = m ((c : Thread nD τ).loc main_arg4) := by
  simp only [W3, W2, W1]; fold_read; closes
theorem W3_arg5 : W3 m ρ c (Proc.devRef .tc main_arg5) = m ((c : Thread nD τ).loc main_arg5) := by
  simp only [W3, W2, W1]; fold_read; closes
theorem W3_arg6 : W3 m ρ c (Proc.devRef .tc main_arg6) = m ((c : Thread nD τ).loc main_arg6) := by
  simp only [W3, W2, W1]; fold_read; closes

theorem W2_v5 : W2 m ρ c (Proc.devRef .tc main_v5) = srcs (m ((c : Thread nD τ).loc main_arg1)) := by
  simp only [W2, W1]; fold_read; closes
theorem W2_v6 : W2 m ρ c (Proc.devRef .tc main_v6) = dsts (m ((c : Thread nD τ).loc main_arg1)) := by
  simp only [W2, W1]; fold_read; closes
theorem W3_v5 : W3 m ρ c (Proc.devRef .tc main_v5) = srcs (m ((c : Thread nD τ).loc main_arg1)) := by
  simp only [W3, W2, W1]; fold_read; closes
theorem W3_v6 : W3 m ρ c (Proc.devRef .tc main_v6) = dsts (m ((c : Thread nD τ).loc main_arg1)) := by
  simp only [W3, W2, W1]; fold_read; closes
theorem W2_v14 : W2 m ρ c (Proc.devRef .tc main_v14) = degInv (F := Ideal) (dsts (m ((c : Thread nD τ).loc main_arg1))) := by
  simp only [W2, W1]; fold_read; closes
theorem W3_v29 : W3 m ρ c (Proc.devRef .tc main_v29) = edgeNorm (F := Ideal) (srcs (m ((c : Thread nD τ).loc main_arg1))) (dsts (m ((c : Thread nD τ).loc main_arg1))) := by
  simp only [W3]
  generalize hV : W2 m ρ c = V2
  fold_read
  subst hV
  rw [W2_v14, W2_v5, W2_v6]
  closes

/-! ## The first region -/

theorem W4_v30 : W4 m ρ c (Proc.devRef .tc main_v30) = mm256 (m ((c : Thread nD τ).loc main_arg0)) (m ((c : Thread nD τ).loc main_arg3)) := by
  rw [show W4 m ρ c (Proc.devRef .tc main_v30) = _ from W4_arr m ρ c 2, region0_array (V3 m ρ) c]
  exact congrArg₂ mm256 (W3_arg0 m ρ c) (W3_arg3 m ρ c)

theorem W4_v5 : W4 m ρ c (Proc.devRef .tc main_v5) = srcs (m ((c : Thread nD τ).loc main_arg1)) := (W4_of_ne m ρ c main_v5 (by decide)).trans (W3_v5 m ρ c)
theorem W4_v6 : W4 m ρ c (Proc.devRef .tc main_v6) = dsts (m ((c : Thread nD τ).loc main_arg1)) := (W4_of_ne m ρ c main_v6 (by decide)).trans (W3_v6 m ρ c)
theorem W4_v29 : W4 m ρ c (Proc.devRef .tc main_v29) = edgeNorm (F := Ideal) (srcs (m ((c : Thread nD τ).loc main_arg1))) (dsts (m ((c : Thread nD τ).loc main_arg1))) :=
  (W4_of_ne m ρ c main_v29 (by decide)).trans (W3_v29 m ρ c)
theorem W4_arg1 : W4 m ρ c (Proc.devRef .tc main_arg1) = m ((c : Thread nD τ).loc main_arg1) := (W4_of_ne m ρ c main_arg1 (by decide)).trans (W3_arg1 m ρ c)
theorem W4_arg2 : W4 m ρ c (Proc.devRef .tc main_arg2) = m ((c : Thread nD τ).loc main_arg2) := (W4_of_ne m ρ c main_arg2 (by decide)).trans (W3_arg2 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)
theorem W4_arg6 : W4 m ρ c (Proc.devRef .tc main_arg6) = m ((c : Thread nD τ).loc main_arg6) := (W4_of_ne m ρ c main_arg6 (by decide)).trans (W3_arg6 m ρ c)

end Cert.Link

end
-- ==== Proof.Matmul1.lean ====
/-
  The second projection: as the first, with `h : 100000 × 128` (50 tiles of 2000 rows) and `w : 128 × 64`.
-/
import proofs.«430394_j62371515072862_1_alg».proof.Proof.Gen.KernelIdeal.Frame
import proofs.«430394_j62371515072862_1_alg».proof.Proof.Spec
import Idealize.ShloMosaic.Lib.Pipeline.Value
import Idealize.ShloMosaic.PureOps.Ideal.Laws

noncomputable section

namespace Cert.Link

open Idealize.ShloMosaic Idealize.ShloMosaic.TcCoe Idealize.SL.Sem
open Cert.KernelIdeal Cert.KernelIdeal.Gen

namespace Matmul1

/-- On the row axis the left operand's index is the output's row. -/
theorem lhs1_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- On the contracted axis it is the contraction position. -/
theorem lhs1_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's index on its contracted axis is the contraction position. -/
theorem rhs1_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- On the column axis it is the output's column. -/
theorem rhs1_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The tile's product at entry `(p, q)`: the sum over the 128 contracted positions of the products of row `p` of the
    left block and column `q` of the right block (a reshape to the same shape and a change of float format are the
    identity on extended reals). -/
theorem pay1_apply (x0 : Vec Ideal S2000x128 .f32) (x1 : Vec Ideal S128x64 .f32) (p : Fin 2000) (q : Fin 64) :
    (k1_pay1 (F := Ideal) x0 x1) (ValueIdx.ix2 p q) = ∑ k : Fin 128, x0 (ValueIdx.ix2 p k) * x1 (ValueIdx.ix2 k q) := by
  unfold k1_pay1
  simp only [matmul]
  rw [shapeCast_self, Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ValueIdx.ix2 p q) ((ValueIdx.contrEquiv1 dot_S2000x128_S128x64_S2000x64_1_0_0_1_n_n 128 rfl rfl).symm k) = ValueIdx.ix2 p k := funext fun a => Fin.ext (by
    match a with
    | ⟨0, _⟩ => exact lhs1_0 _ _
    | ⟨1, _⟩ => exact (lhs1_1 _ _).trans hk)
  have er : dot_S2000x128_S128x64_S2000x64_1_0_0_1_n_n.rhsIdx (ValueIdx.ix2 p q) ((ValueIdx.contrEquiv1 dot_S2000x128_S128x64_S2000x64_1_0_0_1_n_n 128 rfl rfl).symm k) = ValueIdx.ix2 k q := funext fun a => Fin.ext (by
    match a with
    | ⟨0, _⟩ => exact (rhs1_0 _ _).trans hk
    | ⟨1, _⟩ => exact rhs1_1 _ _)
  rw [ValueIdx.truncf_apply, ValueIdx.truncf_apply, el, er]

theorem zeros2 : (![0, 0] : Fin 2 → Nat) = fun _ => 0 := funext fun a => by fin_cases a <;> rfl

/-- The printed index maps over the 50 tiles: the left operand and the result move down by one block of rows per
    tile, the right operand stays at its one block. -/
theorem tile_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One tile, over plain blocks: if the left block is rows `2000 n … 2000 n + 1999` of `A` and the right block is `B`,
    the tile's product at `j` is the entry of `A · B` in row `2000 n + j₀` and column `j₁`. -/
theorem tile1 (A : FVec Ideal S100000x128 .f32) (B : FVec Ideal S128x64 .f32)
    (x0 : Vec Ideal S2000x128 .f32) (x1 : Vec Ideal S128x64 .f32) (n : Nat) (hn : n < 50)
    (h0 : ∀ (p : Fin 2000) (k : Fin 128), x0 (ValueIdx.ix2 p k) = A (ValueIdx.ix2 (⟨n * 2000 + p.val, by omega⟩ : Fin 100000) k))
    (h1 : ∀ (k : Fin 128) (q : Fin 64), x1 (ValueIdx.ix2 k q) = B (ValueIdx.ix2 k q))
    (j : S2000x64.Idx) (i : S100000x64.Idx) (hi0 : (i 0).val = n * 2000 + (j 0).val) (hi1 : (i 1).val = (j 1).val) :
    k1_pay1 (F := Ideal) x0 x1 j = mm128 A B i := by
  obtain ⟨p, q, rfl⟩ : ∃ (p : Fin 2000) (q : Fin 64), j = ValueIdx.ix2 p q := ⟨j 0, j 1, ValueIdx.eq_ix2 j⟩
  rw [pay1_apply]
  unfold mm128
  refine Finset.sum_congr rfl fun k _ => ?_
  rw [h0, h1]
  have ea : (⟨n * 2000 + p.val, by omega⟩ : Fin 100000) = i 0 := Fin.ext hi0.symm
  have eb : q = i 1 := Fin.ext hi1.symm
  rw [ea, eb]

/-- What tile `t` writes back is block `t` of `A · B`, `A` and `B` the two input arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (mm128 (V c main_v47) (V c main_arg5)) := by
  show (cfg1.win 2).cut (grid1.coords t) ((dat1 V c).after 2 t) = _
  rw [after1_2]
  unfold out1_2
  rw [View.canon_unit_zero zeros2]
  simp only [View.ld_unit_zero (S := S2000x128) zeros2, View.ld_unit_zero (S := S128x64) zeros2]
  obtain ⟨e0, e1, e2, e3, e4, e5⟩ := tile_index1 t
  have hN : cfg1.N = 50 := N_1
  have ht : t.val < 50 := hN ▸ t.isLt
  funext j
  refine tile1 (V c main_v47) (V c main_arg5) (iblk1 V c 0 t) (iblk1 V c 1 t) t.val ht ?_ ?_ j _ ?_ ?_
  · intro p k
    show V c main_v47 (((cfg1.win 0).blk t).view.emb (ValueIdx.ix2 p k)) = V c main_v47 _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k q
    show V c main_arg5 (((cfg1.win 1).blk t).view.emb (ValueIdx.ix2 k q)) = V c main_arg5 _
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * q.val = q.val; omega
  · show win1_2.index t (0 : Fin 2) * 2000 + 1 * (j 0).val = t.val * 2000 + (j 0).val; omega
  · show win1_2.index t (1 : Fin 2) * 64 + 1 * (j 1).val = (j 1).val; omega

/-- An entry of the result array lies in tile `t`'s block iff each coordinate lies in the block's range on its axis. -/
theorem mem_blk1 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v78).slice (win1_2.rect t)).set ↔ _
  rw [View.set_slice_whole, Rect.mem_set_unit]
  exact Iff.rfl

/-- Every entry of the result array is in some tile's block: row `r` is in tile `r / 2000`. -/
theorem cover1 (i : S100000x64.Idx) : ∃ t : Fin cfg1.N, (cfg1.win 2).flush t = true ∧ i ∈ ((cfg1.win 2).blk t).view.set := by
  have hN : cfg1.N = 50 := N_1
  have hi0 : (i 0).val < 100000 := (i 0).isLt
  have hi1 : (i 1).val < 64 := (i 1).isLt
  have ht : (i 0).val / 2000 < cfg1.N := by rw [hN]; omega
  refine ⟨⟨(i 0).val / 2000, ht⟩, flush1_2 _, ?_⟩
  obtain ⟨e0, e1, e2, e3, e4, e5⟩ := tile_index1 ⟨(i 0).val / 2000, ht⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 64 ≤ (i 1).val ∧ (i 1).val < win1_2.index ⟨(i 0).val / 2000, ht⟩ (1 : Fin 2) * 64 + 64
    rw [e5]; omega

end Matmul1

/-- After region 1 its output array is the matrix product of its two input arrays as the region found them. -/
theorem region1_array (V : (c : Dev nD) → (b : Ref sig .tc) → Buf (Elt Ideal) ((c : Thread nD τ).loc b)) (c : Dev nD) :
    (dat1 (F := Ideal) V c).arrAt 2 cfg1.N = mm128 (V c main_v47) (V c main_arg5) :=
  (dat1 (F := Ideal) V c).arrAt_eq_of_cover 2 (mm128 (V c main_v47) (V c main_arg5)) (fun t _ => Matmul1.flushed1_eq V c t) Matmul1.cover1

end Cert.Link

end
-- ==== Proof.FoldB.lean ====
/-
  The kernel program's buffers between the two dense products, read back to the launch memory.
  After the first region the host code aggregates `x · w1` over the edges, adds the bias and takes `max(·, 0)`
  (`hidden`), and builds the edge ends and weights once more from the same edge list; the second region leaves
  `hidden · w2` in its output array and every other buffer alone.
-/
import proofs.«430394_j62371515072862_1_alg».proof.Proof.Gen.KernelIdeal.Frame
import proofs.«430394_j62371515072862_1_alg».proof.Proof.Gcn
import proofs.«430394_j62371515072862_1_alg».proof.Proof.FoldA
import proofs.«430394_j62371515072862_1_alg».proof.Proof.Matmul1
import Idealize.ShloMosaic.Lib.StableHlo.Run

set_option maxRecDepth 16384

noncomputable section

namespace Cert.Link

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Read a buffer through a stretch of host operations in one simp pass: each operation's result at its own buffer is
    its function of its operands' contents, at any other buffer what was there; a two-piece concatenate is named
    (`catE`) so that the pass goes on reading inside its pieces; the typed-reference casts of outlined calls are cleared. -/
macro "fold_read" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      catE_eq, TRef.ofBuf, TRef.toBuf, cast_eq]))
macro "closes" : tactic => `(tactic| (first | done | rfl))

/-! ## The first aggregation -/

theorem W5_v46 : W5 m ρ c (Proc.devRef .tc main_v46)
    = conv128 (mm256 (m ((c : Thread nD τ).loc main_arg0)) (m ((c : Thread nD τ).loc main_arg3))) (srcs (m ((c : Thread nD τ).loc main_arg1))) (dsts (m ((c : Thread nD τ).loc main_arg1))) (edgeNorm (F := Ideal) (srcs (m ((c : Thread nD τ).loc main_arg1))) (dsts (m ((c : Thread nD τ).loc main_arg1)))) (m ((c : Thread nD τ).loc main_arg4)) := by
  simp only [W5]; fold_read
  rw [W4_v30, W4_v5, W4_v6, W4_v29, W4_arg4]
  closes

theorem W6_v47 : W6 m ρ c (Proc.devRef .tc main_v47) = hidden (m ((c : Thread nD τ).loc main_arg0)) (m ((c : Thread nD τ).loc main_arg1)) (m ((c : Thread nD τ).loc main_arg3)) (m ((c : Thread nD τ).loc main_arg4)) := by
  simp only [W6]
  generalize hV : W5 m ρ c = V
  fold_read
  subst hV
  rw [W5_v46]
  closes

theorem W6_arg1 : W6 m ρ c (Proc.devRef .tc main_arg1) = m ((c : Thread nD τ).loc main_arg1) := by
  simp only [W6, W5]; fold_read; exact W4_arg1 m ρ c

/-! ## The edge ends and weights, built again -/

theorem W8_v53 : W8 m ρ c (Proc.devRef .tc main_v53) = srcs (m ((c : Thread nD τ).loc main_arg1)) := by
  simp only [W8, W7]
  generalize hV : W6 m ρ c = V
  fold_read
  subst hV
  rw [W6_arg1]
  closes
theorem W8_v54 : W8 m ρ c (Proc.devRef .tc main_v54) = dsts (m ((c : Thread nD τ).loc main_arg1)) := by
  simp only [W8, W7]
  generalize hV : W6 m ρ c = V
  fold_read
  subst hV
  rw [W6_arg1]
  closes
theorem W8_v62 : W8 m ρ c (Proc.devRef .tc main_v62) = degInv (F := Ideal) (dsts (m ((c : Thread nD τ).loc main_arg1))) := by
  simp only [W8, W7]
  generalize hV : W6 m ρ c = V
  fold_read
  subst hV
  rw [W6_arg1]
  closes
theorem W9_v77 : W9 m ρ c (Proc.devRef .tc main_v77) = edgeNorm (F := Ideal) (srcs (m ((c : Thread nD τ).loc main_arg1))) (dsts (m ((c : Thread nD τ).loc main_arg1))) := by
  simp only [W9]
  generalize hV : W8 m ρ c = V
  fold_read
  subst hV
  rw [W8_v62, W8_v53, W8_v54]
  closes
theorem W9_v53 : W9 m ρ c (Proc.devRef .tc main_v53) = srcs (m ((c : Thread nD τ).loc main_arg1)) := by
  simp only [W9]
  generalize hV : W8 m ρ c = V
  fold_read
  subst hV
  exact W8_v53 m ρ c
theorem W9_v54 : W9 m ρ c (Proc.devRef .tc main_v54) = dsts (m ((c : Thread nD τ).loc main_arg1)) := by
  simp only [W9]
  generalize hV : W8 m ρ c = V
  fold_read
  subst hV
  exact W8_v54 m ρ c
theorem W9_v47 : W9 m ρ c (Proc.devRef .tc main_v47) = hidden (m ((c : Thread nD τ).loc main_arg0)) (m ((c : Thread nD τ).loc main_arg1)) (m ((c : Thread nD τ).loc main_arg3)) (m ((c : Thread nD τ).loc main_arg4)) := by
  simp only [W9, W8, W7]
  generalize hV : W6 m ρ c = V
  fold_read
  subst hV
  exact W6_v47 m ρ c
theorem W9_arg2 : W9 m ρ c (Proc.devRef .tc main_arg2) = m ((c : Thread nD τ).loc main_arg2) := by
  simp only [W9, W8, W7, W6, W5]; fold_read; exact W4_arg2 m ρ c
theorem W9_arg5 : W9 m ρ c (Proc.devRef .tc main_arg5) = m ((c : Thread nD τ).loc main_arg5) := by
  simp only [W9, W8, W7, W6, W5]; fold_read; exact W4_arg5 m ρ c
theorem W9_arg6 : W9 m ρ c (Proc.devRef .tc main_arg6) = m ((c : Thread nD τ).loc main_arg6) := by
  simp only [W9, W8, W7, W6, W5]; fold_read; exact W4_arg6 m ρ c

/-! ## The second region -/

theorem W10_v78 : W10 m ρ c (Proc.devRef .tc main_v78) = mm128 (hidden (m ((c : Thread nD τ).loc main_arg0)) (m ((c : Thread nD τ).loc main_arg1)) (m ((c : Thread nD τ).loc main_arg3)) (m ((c : Thread nD τ).loc main_arg4))) (m ((c : Thread nD τ).loc main_arg5)) := by
  rw [show W10 m ρ c (Proc.devRef .tc main_v78) = _ from W10_arr m ρ c 2, region1_array (V9 m ρ) c]
  exact congrArg₂ mm128 (W9_v47 m ρ c) (W9_arg5 m ρ c)

theorem W10_v53 : W10 m ρ c (Proc.devRef .tc main_v53) = srcs (m ((c : Thread nD τ).loc main_arg1)) := (W10_of_ne m ρ c main_v53 (by decide)).trans (W9_v53 m ρ c)
theorem W10_v54 : W10 m ρ c (Proc.devRef .tc main_v54) = dsts (m ((c : Thread nD τ).loc main_arg1)) := (W10_of_ne m ρ c main_v54 (by decide)).trans (W9_v54 m ρ c)
theorem W10_v77 : W10 m ρ c (Proc.devRef .tc main_v77) = edgeNorm (F := Ideal) (srcs (m ((c : Thread nD τ).loc main_arg1))) (dsts (m ((c : Thread nD τ).loc main_arg1))) := (W10_of_ne m ρ c main_v77 (by decide)).trans (W9_v77 m ρ c)
theorem W10_arg2 : W10 m ρ c (Proc.devRef .tc main_arg2) = m ((c : Thread nD τ).loc main_arg2) := (W10_of_ne m ρ c main_arg2 (by decide)).trans (W9_arg2 m ρ c)
theorem W10_arg6 : W10 m ρ c (Proc.devRef .tc main_arg6) = m ((c : Thread nD τ).loc main_arg6) := (W10_of_ne m ρ c main_arg6 (by decide)).trans (W9_arg6 m ρ c)

end Cert.Link

end
-- ==== Proof.Decode2.lean ====
/-
  The decoder. The kernel walks the 507904 columns in 62 tiles of 8192; at tile `t` it multiplies the two
  `64 × 8192` blocks entry by entry and sums over the 64 features, writing columns `8192 t …` of the `1 × 507904`
  result. The tiles cover the result, so after the last one the array is `dec a b`.
-/
import proofs.«430394_j62371515072862_1_alg».proof.Proof.Gen.KernelIdeal.Frame
import proofs.«430394_j62371515072862_1_alg».proof.Proof.Spec
import Idealize.ShloMosaic.Lib.Pipeline.Value
import Idealize.ShloMosaic.PureOps.Ideal.Laws

noncomputable section

namespace Cert.Link

open Idealize.ShloMosaic Idealize.ShloMosaic.TcCoe Idealize.SL.Sem
open Cert.KernelIdeal Cert.KernelIdeal.Gen

namespace Decode2

open Idealize.ShloMosaic.ValueIdx

/-! ## One tile: the body's result at a column -/

/-- Summing a `64 × 8192` block over its 64 rows, from the zero word: at column `q` the result is
    `∑ d, src (d, q)`. The index the reduction inserts `d` into is `(d, q)`, coordinate by coordinate. -/
theorem laneSum_at (src : FVec Ideal S64x8192 .f32) (hφ : FKind.Formats .f32)
    (hacc : (0x00000000#32 : BitVec 32) = 0x00000000#32) (q : Fin 8192) :
    multiReduction (F := Ideal) .add [0] S8192 src 0x00000000#32 reduces_S64x8192_S8192 hφ hacc (ix1 q)
      = ∑ d : Fin 64, src (ix2 d q) := by
  refine (Ideal.multiReduction_add_single src 0x00000000#32 reduces_S64x8192_S8192 hφ hacc (ix1 q)).trans ?_
  refine Finset.sum_congr rfl fun d _ => congrArg src ?_
  funext a
  match a with
  | ⟨0, _⟩ => rfl
  | ⟨1, _⟩ => rfl

/-- The body's result block at `(0, q)`: the two reshapes to the same shape change nothing, the product is
    entry by entry, the row sum is `laneSum_at`, and the last reshape `[8192] → [1, 8192]` reads `(0, q)` at `q`.
    So the entry is `∑ d, a0 (d, q) * a1 (d, q)`. -/
theorem pay_at (a0 a1 : Vec Ideal S64x8192 .f32) (q : Fin 8192) :
    k2_pay1 (F := Ideal) a0 a1 (ix2 (0 : Fin 1) q) = ∑ d : Fin 64, a0 (ix2 d q) * a1 (ix2 d q) := by
  unfold k2_pay1
  simp only [shapeCast_self]
  refine (shapeCast_addUnit_apply ![8192] _ shapeCasts_S8192_S1x8192 (ix2 (0 : Fin 1) q)).trans ?_
  have e : (fun a : Fin 1 => (ix2 (0 : Fin 1) q) a.succ) = ix1 q := by
    funext a; match a with | ⟨0, _⟩ => rfl
  rw [e]
  exact laneSum_at _ _ _ q

/-- If column `q` of the two blocks is column `r` of two arrays, the body's result at `(0, q)` is the decoder
    of the arrays at `(0, r)`: both are the sum over the 64 features of the products in that column. -/
theorem pay_block (A0 A1 : FVec Ideal S64x507904 .f32) (b0 b1 : Vec Ideal S64x8192 .f32)
    (q : Fin 8192) (r : Fin 507904)
    (h0 : ∀ d : Fin 64, b0 (ix2 d q) = A0 (ix2 d r)) (h1 : ∀ d : Fin 64, b1 (ix2 d q) = A1 (ix2 d r)) :
    k2_pay1 (F := Ideal) b0 b1 (ix2 (0 : Fin 1) q) = dec A0 A1 (ix2 (0 : Fin 1) r) := by
  rw [pay_at]
  show _ = ∑ d : Fin 64, A0 (ix2 d r) * A1 (ix2 d r)
  exact Finset.sum_congr rfl fun d _ => by rw [h0 d, h1 d]

/-! ## Where tile `t`'s blocks sit -/

/-- The two zero offsets of a whole-buffer access, as the constant function. -/
theorem off_zero : (![0, 0] : Fin 2 → Nat) = fun _ => 0 := funext fun a => by fin_cases a <;> rfl

/-- At each of the 62 points `t` all three windows are at block row `0` and block column `t`. -/
theorem blk_index : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- What point `t` writes back is block `t` of the decoder of the two input arrays. The body stores its result
    over the whole output buffer and loads the whole input buffers, so what it leaves is its result on the two input
    blocks. Entry `(0, q)` of the output block is entry `(0, 8192 t + q)` of the array, and entry `(d, q)` of
    either input block is entry `(d, 8192 t + q)` of its array: an element of a block sits at block index × block
    size + its coordinate in the block, and the block indices are `(0, t)`. -/
theorem flushed_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (dec (V c main_v102) (V c main_v103)) := by
  show (cfg2.win 2).cut (grid2.coords t) ((dat2 V c).after 2 t) = _
  rw [after2_2]
  unfold out2_2
  rw [View.canon_unit_zero off_zero]
  simp only [View.ld_unit_zero (S := S64x8192) off_zero]
  obtain ⟨e0, e1, e2, e3, e4, e5⟩ := blk_index t
  have hN : t.val < 62 := lt_of_lt_of_eq t.isLt N_2
  funext j
  obtain ⟨p, q, rfl⟩ : ∃ (p : Fin 1) (q : Fin 8192), j = ix2 p q := ⟨j 0, j 1, @eq_ix2 1 8192 j⟩
  obtain rfl : p = 0 := Subsingleton.elim _ _
  have hq : q.val < 8192 := q.isLt
  have hr : t.val * 8192 + q.val < 507904 := by omega
  -- the output block's entry (0, q) is the array's entry (0, 8192 t + q)
  have hemb : ((cfg2.win 2).blk t).view.emb (ix2 (0 : Fin 1) q) = ix2 (0 : Fin 1) (⟨t.val * 8192 + q.val, hr⟩ : Fin 507904) := by
    funext a; apply Fin.ext
    match a with
    | ⟨0, _⟩ => show win2_2.index t (0 : Fin 2) * 1 + 1 * 0 = 0; omega
    | ⟨1, _⟩ => show win2_2.index t (1 : Fin 2) * 8192 + 1 * q.val = t.val * 8192 + q.val; omega
  show k2_pay1 (iblk2 V c 0 t) (iblk2 V c 1 t) (ix2 (0 : Fin 1) q)
    = dec (V c main_v102) (V c main_v103) (((cfg2.win 2).blk t).view.emb (ix2 (0 : Fin 1) q))
  refine Eq.trans ?_ (congrArg (dec (V c main_v102) (V c main_v103)) hemb.symm)
  refine pay_block (V c main_v102) (V c main_v103) (iblk2 V c 0 t) (iblk2 V c 1 t) q ⟨t.val * 8192 + q.val, hr⟩ (fun d => ?_) (fun d => ?_)
  -- the first input block's entry (d, q) is its array's entry (d, 8192 t + q)
  · show V c main_v102 (((cfg2.win 0).blk t).view.emb (ix2 d q)) = V c main_v102 (ix2 d (⟨t.val * 8192 + q.val, hr⟩ : Fin 507904))
    refine congrArg (V c main_v102) ?_
    funext a; apply Fin.ext
    match a with
    | ⟨0, _⟩ => show win2_0.index t (0 : Fin 2) * 64 + 1 * d.val = d.val; omega
    | ⟨1, _⟩ => show win2_0.index t (1 : Fin 2) * 8192 + 1 * q.val = t.val * 8192 + q.val; omega
  -- and the same for the second
  · show V c main_v103 (((cfg2.win 1).blk t).view.emb (ix2 d q)) = V c main_v103 (ix2 d (⟨t.val * 8192 + q.val, hr⟩ : Fin 507904))
    refine congrArg (V c main_v103) ?_
    funext a; apply Fin.ext
    match a with
    | ⟨0, _⟩ => show win2_1.index t (0 : Fin 2) * 64 + 1 * d.val = d.val; omega
    | ⟨1, _⟩ => show win2_1.index t (1 : Fin 2) * 8192 + 1 * q.val = t.val * 8192 + q.val; omega

/-! ## The tiles cover the result -/

/-- An index of the result is in point `t`'s block iff each coordinate is in the block's range on its axis. -/
theorem mem_blk (t : Fin cfg2.N) (i : S1x507904.Idx) :
    i ∈ ((cfg2.win 2).blk t).view.set ↔ ∀ a : Fin 2, win2_2.index t a * S1x8192.size a ≤ (i a).val ∧ (i a).val < win2_2.index t a * S1x8192.size a + S1x8192.size a := by
  show i ∈ ((View.whole main_v104).slice (win2_2.rect t)).set ↔ _
  rw [View.set_slice_whole, Rect.mem_set_unit]
  exact Iff.rfl

/-- Column `j` of the result lies in the block of point `j / 8192`, which is one of the 62 points because
    `507904 = 62 · 8192`; and every point writes its block back. -/
theorem cover (i : S1x507904.Idx) :
    ∃ t : Fin cfg2.N, (cfg2.win 2).flush t = true ∧ i ∈ ((cfg2.win 2).blk t).view.set := by
  have hi0 : (i 0).val < 1 := (i 0).isLt
  have hi1 : (i 1).val < 507904 := (i 1).isLt
  have hlt : (i 1).val / 8192 < cfg2.N := by rw [show cfg2.N = 62 from N_2]; omega
  refine ⟨⟨(i 1).val / 8192, hlt⟩, flush2_2 _, ?_⟩
  obtain ⟨-, -, -, -, e4, e5⟩ := blk_index ⟨(i 1).val / 8192, hlt⟩
  rw [mem_blk]
  intro a
  match a with
  | ⟨0, _⟩ => show win2_2.index ⟨(i 1).val / 8192, hlt⟩ (0 : Fin 2) * 1 ≤ (i 0).val ∧ (i 0).val < win2_2.index ⟨(i 1).val / 8192, hlt⟩ (0 : Fin 2) * 1 + 1; omega
  | ⟨1, _⟩ => show win2_2.index ⟨(i 1).val / 8192, hlt⟩ (1 : Fin 2) * 8192 ≤ (i 1).val ∧ (i 1).val < win2_2.index ⟨(i 1).val / 8192, hlt⟩ (1 : Fin 2) * 8192 + 8192
              rw [e5]; show (i 1).val / 8192 * 8192 ≤ (i 1).val ∧ (i 1).val < (i 1).val / 8192 * 8192 + 8192; omega

end Decode2

/-- After region 2 its output array is the decoder's function of its two input arrays as the region found them. -/
theorem region2_array (V : (c : Dev nD) → (b : Ref sig .tc) → Buf (Elt Ideal) ((c : Thread nD τ).loc b)) (c : Dev nD) :
    (dat2 (F := Ideal) V c).arrAt 2 cfg2.N = dec (V c main_v102) (V c main_v103) :=
  (dat2 (F := Ideal) V c).arrAt_eq_of_cover 2 (dec (V c main_v102) (V c main_v103))
    (fun t _ => Decode2.flushed_eq V c t) Decode2.cover

end Cert.Link

end
-- ==== Proof.FoldC.lean ====
/-
  The kernel program's result, read back to the launch memory.
  After the second region the host code aggregates `hidden · w2` over the edges and adds the bias (the embeddings,
  `embed`), transposes them, pads the two rows of label pairs and reads the padded node numbers as columns of the
  transpose; the third region decodes; the first 500000 entries are the result: `kernelScores` of the embeddings.
-/
import proofs.«430394_j62371515072862_1_alg».proof.Proof.Gen.KernelIdeal.Frame
import proofs.«430394_j62371515072862_1_alg».proof.Proof.Gcn
import proofs.«430394_j62371515072862_1_alg».proof.Proof.FoldB
import proofs.«430394_j62371515072862_1_alg».proof.Proof.Decode2
import Idealize.ShloMosaic.Lib.StableHlo.Run

set_option maxRecDepth 16384

noncomputable section

namespace Cert.Link

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Read a buffer through a stretch of host operations in one simp pass: each operation's result at its own buffer is
    its function of its operands' contents, at any other buffer what was there; a two-piece concatenate is named
    (`catE`) so that the pass goes on reading inside its pieces; the typed-reference casts of outlined calls are cleared. -/
macro "fold_read" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      catE_eq, TRef.ofBuf, TRef.toBuf, cast_eq]))
macro "closes" : tactic => `(tactic| (first | done | rfl))

/-! ## The embeddings, feature-major, and the padded labels -/

theorem W11_v95 : W11 m ρ c (Proc.devRef .tc main_v95) = featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  simp only [W11]; fold_read
  rw [W10_v78, W10_v53, W10_v54, W10_v77, W10_arg6]
  closes
theorem W12_v100 : W12 m ρ c (Proc.devRef .tc main_v100) = padded (lblRow0 (m ((c : Thread nD τ).loc main_arg2))) := by
  simp only [W12, W11]; fold_read
  rw [W10_arg2]
  closes
theorem W14_v101 : W14 m ρ c (Proc.devRef .tc main_v101) = padded (lblRow1 (m ((c : Thread nD τ).loc main_arg2))) := by
  simp only [W14, W13, W12, W11]; fold_read
  rw [W10_arg2]
  closes
theorem W14_v95 : W14 m ρ c (Proc.devRef .tc main_v95) = featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  simp only [W14, W13, W12]
  generalize hV : W11 m ρ c = V
  fold_read
  subst hV
  exact W11_v95 m ρ c
theorem W14_v100 : W14 m ρ c (Proc.devRef .tc main_v100) = padded (lblRow0 (m ((c : Thread nD τ).loc main_arg2))) := by
  simp only [W14, W13]
  generalize hV : W12 m ρ c = V
  fold_read
  subst hV
  exact W12_v100 m ρ c

/-! ## The two column reads -/

theorem W15_v102 : W15 m ρ c (Proc.devRef .tc main_v102) = takeCols (featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (padded (lblRow0 (m ((c : Thread nD τ).loc main_arg2)))) := by
  simp only [W15]
  generalize hV : W14 m ρ c = V
  fold_read
  subst hV
  rw [W14_v95, W14_v100]
  closes
theorem W15_v95 : W15 m ρ c (Proc.devRef .tc main_v95) = featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  simp only [W15]
  generalize hV : W14 m ρ c = V
  fold_read
  subst hV
  exact W14_v95 m ρ c
theorem W15_v101 : W15 m ρ c (Proc.devRef .tc main_v101) = padded (lblRow1 (m ((c : Thread nD τ).loc main_arg2))) := by
  simp only [W15]
  generalize hV : W14 m ρ c = V
  fold_read
  subst hV
  exact W14_v101 m ρ c
theorem W16_v103 : W16 m ρ c (Proc.devRef .tc main_v103) = takeCols (featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (padded (lblRow1 (m ((c : Thread nD τ).loc main_arg2)))) := by
  simp only [W16]
  generalize hV : W15 m ρ c = V
  fold_read
  subst hV
  rw [W15_v95, W15_v101]
  closes
theorem W16_v102 : W16 m ρ c (Proc.devRef .tc main_v102) = takeCols (featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (padded (lblRow0 (m ((c : Thread nD τ).loc main_arg2)))) := by
  simp only [W16]
  generalize hV : W15 m ρ c = V
  fold_read
  subst hV
  exact W15_v102 m ρ c

/-! ## The decoder and the result -/

theorem W17_v104 : W17 m ρ c (Proc.devRef .tc main_v104) = dec (takeCols (featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (padded (lblRow0 (m ((c : Thread nD τ).loc main_arg2))))) (takeCols (featMajor (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (padded (lblRow1 (m ((c : Thread nD τ).loc main_arg2))))) := by
  rw [show W17 m ρ c (Proc.devRef .tc main_v104) = _ from W17_arr m ρ c 2, region2_array (V16 m ρ) c]
  exact congrArg₂ dec (W16_v102 m ρ c) (W16_v103 m ρ c)

/-- The kernel program's result buffer after the run is `kernelScores` of the embeddings and the label pairs. -/
theorem W18_v106 : W18 m ρ c (Proc.devRef .tc main_v106) = kernelScores (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) := by
  simp only [W18]; fold_read
  rw [W17_v104]
  closes

end Cert.Link

end
-- ==== Proof.DotIsSum.lean ====
/-
  The reference's two `dot_general`s (one contracted axis each) are the same finite sums `mm256`, `mm128`.
  At the ideal values a `dot_general` read at an output index is the sum, over the contraction's index set, of the
  products of the two operands at the indices the dimension numbers name. Here the left operand contracts its axis 1
  and the right its axis 0, with no batch axes, so at output `(r, c)` and contraction coordinate `k` the operands are
  read at `(r, k)` and `(k, c)`.
-/
import proofs.«430394_j62371515072862_1_alg».proof.Proof.Gen.ReferenceIdeal
import proofs.«430394_j62371515072862_1_alg».proof.Proof.Spec
import Idealize.ShloMosaic.PureOps.Ideal.Laws
import Idealize.ShloMosaic.Lib.ValueIdx

noncomputable section

namespace Cert.Link

open Idealize.ShloMosaic Idealize.ShloMosaic.TcCoe Idealize.SL.Sem Idealize.ShloMosaic.ValueIdx
open Cert.ReferenceIdeal

/-! ### The first layer's product: 256 contracted coordinates -/

/-- Axis 0 of the left operand is not contracted: it reads the output row. -/
private theorem lhs256_0 (j : S100000x128.Idx) (k : dot_S100000x256_S256x128_S100000x128_1_0_0_1_n_n.contr.Idx) :
    (dot_S100000x256_S256x128_S100000x128_1_0_0_1_n_n.lhsIdx j k 0).val = (j 0).val := rfl

/-- Axis 1 of the left operand is the one contracted axis: it reads the contraction coordinate. -/
private theorem lhs256_1 (j : S100000x128.Idx) (k : dot_S100000x256_S256x128_S100000x128_1_0_0_1_n_n.contr.Idx) :
    (dot_S100000x256_S256x128_S100000x128_1_0_0_1_n_n.lhsIdx j k 1).val = (k ⟨0, by decide⟩).val :=
  DotDims.lhsIdx_val_of_single _ rfl j k

/-- Axis 0 of the right operand is the one contracted axis: it reads the contraction coordinate. -/
private theorem rhs256_0 (j : S100000x128.Idx) (k : dot_S100000x256_S256x128_S100000x128_1_0_0_1_n_n.contr.Idx) :
    (dot_S100000x256_S256x128_S100000x128_1_0_0_1_n_n.rhsIdx j k 0).val = (k ⟨0, by decide⟩).val :=
  DotDims.rhsIdx_val_of_single _ rfl j k

/-- Axis 1 of the right operand is not contracted: it reads the output column. -/
private theorem rhs256_1 (j : S100000x128.Idx) (k : dot_S100000x256_S256x128_S100000x128_1_0_0_1_n_n.contr.Idx) :
    (dot_S100000x256_S256x128_S100000x128_1_0_0_1_n_n.rhsIdx j k 1).val = (j 1).val := rfl

/-- Entry `(r, c)` of the product is `∑ k < 256, x[r, k] * w[k, c]`: the sum over the one-axis contraction index set,
    carried to the sum over `Fin 256` along the bijection "its one coordinate". -/
theorem dot256 (x : FVec Ideal S100000x256 .f32) (w : FVec Ideal S256x128 .f32) :
    Host.dotGeneral (F := Ideal) dot_S100000x256_S256x128_S100000x128_1_0_0_1_n_n none x w = mm256 x w := by
  funext i
  simp only [Host.dotGeneral]
  rw [Ideal.dotGeneral_apply]
  unfold mm256
  rw [← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  -- the two operand indices at (i, k), coordinate by coordinate
  congr 2
  · funext a
    match a with
    | ⟨0, _⟩ => exact Fin.ext (lhs256_0 _ _)
    | ⟨1, _⟩ => exact Fin.ext ((lhs256_1 _ _).trans hk)
  · funext a
    match a with
    | ⟨0, _⟩ => exact Fin.ext ((rhs256_0 _ _).trans hk)
    | ⟨1, _⟩ => exact Fin.ext (rhs256_1 _ _)

/-! ### The second layer's product: 128 contracted coordinates -/

/-- Axis 0 of the left operand is not contracted: it reads the output row. -/
private theorem lhs128_0 (j : S100000x64.Idx) (k : dot_S100000x128_S128x64_S100000x64_1_0_0_1_n_n.contr.Idx) :
    (dot_S100000x128_S128x64_S100000x64_1_0_0_1_n_n.lhsIdx j k 0).val = (j 0).val := rfl

/-- Axis 1 of the left operand is the one contracted axis: it reads the contraction coordinate. -/
private theorem lhs128_1 (j : S100000x64.Idx) (k : dot_S100000x128_S128x64_S100000x64_1_0_0_1_n_n.contr.Idx) :
    (dot_S100000x128_S128x64_S100000x64_1_0_0_1_n_n.lhsIdx j k 1).val = (k ⟨0, by decide⟩).val :=
  DotDims.lhsIdx_val_of_single _ rfl j k

/-- Axis 0 of the right operand is the one contracted axis: it reads the contraction coordinate. -/
private theorem rhs128_0 (j : S100000x64.Idx) (k : dot_S100000x128_S128x64_S100000x64_1_0_0_1_n_n.contr.Idx) :
    (dot_S100000x128_S128x64_S100000x64_1_0_0_1_n_n.rhsIdx j k 0).val = (k ⟨0, by decide⟩).val :=
  DotDims.rhsIdx_val_of_single _ rfl j k

/-- Axis 1 of the right operand is not contracted: it reads the output column. -/
private theorem rhs128_1 (j : S100000x64.Idx) (k : dot_S100000x128_S128x64_S100000x64_1_0_0_1_n_n.contr.Idx) :
    (dot_S100000x128_S128x64_S100000x64_1_0_0_1_n_n.rhsIdx j k 1).val = (j 1).val := rfl

/-- Entry `(r, c)` of the product is `∑ k < 128, x[r, k] * w[k, c]`: the sum over the one-axis contraction index set,
    carried to the sum over `Fin 128` along the bijection "its one coordinate". -/
theorem dot128 (x : FVec Ideal S100000x128 .f32) (w : FVec Ideal S128x64 .f32) :
    Host.dotGeneral (F := Ideal) dot_S100000x128_S128x64_S100000x64_1_0_0_1_n_n none x w = mm128 x w := by
  funext i
  simp only [Host.dotGeneral]
  rw [Ideal.dotGeneral_apply]
  unfold mm128
  rw [← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  -- the two operand indices at (i, k), coordinate by coordinate
  congr 2
  · funext a
    match a with
    | ⟨0, _⟩ => exact Fin.ext (lhs128_0 _ _)
    | ⟨1, _⟩ => exact Fin.ext ((lhs128_1 _ _).trans hk)
  · funext a
    match a with
    | ⟨0, _⟩ => exact Fin.ext ((rhs128_0 _ _).trans hk)
    | ⟨1, _⟩ => exact Fin.ext (rhs128_1 _ _)

end Cert.Link

end
-- ==== Proof.RefValue.lean ====
/-
  The reference program's result, as the same functions of the launch memory.
  Its composed term is the two shared convolutions around two `dot_general`s, then rows of the embeddings at the
  label pairs, multiplied entry by entry and summed over the 64 features: `referenceScores` of `embed`, once each
  `dot_general` is read as the finite sum it is at exact arithmetic.
-/
import proofs.«430394_j62371515072862_1_alg».proof.Proof.RefRun
import proofs.«430394_j62371515072862_1_alg».proof.Proof.Gcn
import proofs.«430394_j62371515072862_1_alg».proof.Proof.DotIsSum
import proofs.«430394_j62371515072862_1_alg».proof.Proof.Gen.KernelIdeal

set_option maxRecDepth 16384

noncomputable section

namespace Cert.Link

open Idealize.ShloMosaic Idealize.ShloMosaic.TcCoe Idealize.SL.Sem

/-- The reference's result buffer after its run is `referenceScores` of the embeddings and the label pairs. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.RunP.res_main_v114 (F := Ideal) m' c
      = referenceScores (embed (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)))
          (m' ((c : Thread Cert.ReferenceIdeal.nD Cert.ReferenceIdeal.τ).loc Cert.ReferenceIdeal.main_arg2)) := by
  unfold Cert.ReferenceIdeal.RunP.res_main_v114
  rw [dot256, dot128]
  rfl

end Cert.Link

end
-- ==== Proof.Tail.lean ====
/-
  The two decoders agree wherever every label is a valid node number. For a pair `j < 500000` with labels `s, t`:
  the kernel pads, wraps a negative label by adding 100000, finds the wrapped number in `0 … 99999` (so its mask is
  set and no fill is read), reads column `wrap s` of the transpose — that is row `wrap s` of `z` —, and sums
  `z[wrap s, d] * z[wrap t, d]` over `d`; the reference wraps the same way, clamps (a no-op in range), reads the same
  rows and forms the same sum.

  The steps, each a small lemma: the wrap of one word and its range (no overflow, since `-100000 ≤ w < 0` gives
  `0 ≤ w + 100000 < 100000`); a gather of whole columns and one of whole rows read at an index (the start index read
  signed and clamped, the same clamp `min · 99999` on both sides); a pad that only appends, read below the operand's
  length; an `and` over an axis of extent one; then the slices, reshapes, broadcasts and the transpose read at an
  index, and the two sums over the 64 features compared term by term.
-/
import proofs.«430394_j62371515072862_1_alg».proof.Proof.Gen.KernelIdeal
import proofs.«430394_j62371515072862_1_alg».proof.Proof.Gen.ReferenceIdeal
import proofs.«430394_j62371515072862_1_alg».proof.Proof.Spec
import Idealize.ShloMosaic.Lib.ValueIdx
import Idealize.ShloMosaic.Lib.Pipeline.Value
import Idealize.ShloMosaic.Lib.Affine
import Idealize.ShloMosaic.PureOps.Reduce
import Idealize.ShloMosaic.PureOps.Ideal.Laws

noncomputable section

namespace Cert.Link

open Idealize.ShloMosaic Idealize.ShloMosaic.TcCoe Idealize.SL.Sem
open Idealize.ShloMosaic.ValueIdx
open Cert.KernelIdeal
open Cert.KernelIdeal.Facts₀

/-! ### Words -/

/-- A negative node number counted from the end, on one word. -/
private def wrapW (w : BitVec 32) : BitVec 32 :=
  Scalar.select (IntOp.cmpi .slt w 0#32) (IntOp.addi w 100000#32) w

private theorem wrapW_range (w : BitVec 32) (h : (-100000 : Int) ≤ w.toInt ∧ w.toInt < 100000) :
    0 ≤ (wrapW w).toInt ∧ (wrapW w).toInt ≤ 99999 := by
  unfold wrapW
  by_cases hneg : w.toInt < 0
  · have hc : IntOp.cmpi .slt w 0#32 = 1#1 := IntOp.cmpi_slt.mpr (by simpa using hneg)
    rw [hc, select_one]
    have hadd : (IntOp.addi w 100000#32).toInt = w.toInt + 100000 := by
      show (w + 100000#32).toInt = _
      have hk : (100000#32 : BitVec 32).toInt = 100000 := by decide
      rw [BitVec.toInt_add, hk]
      exact Int.bmod_eq_of_le (by omega) (by omega)
    rw [hadd]; omega
  · have hc : ¬ IntOp.cmpi .slt w 0#32 = 1#1 := fun hh => hneg (by simpa using IntOp.cmpi_slt.mp hh)
    rw [eq_zero_of_ne_one hc, select_zero]; omega

/-! ### Gathers of whole columns and of whole rows, read at an index -/

/-- A start index read as a signed integer and clamped into `0 … N - 1`. -/
private def clampIx (N : Nat) (hN : 0 < N) {w : Nat} (s : BitVec w) : Fin N := ⟨min s.toInt.toNat (N - 1), by omega⟩

section Gathers
variable {α : Type}

/-- The dimension numbers of "take whole columns": operand `[R, N]`, start indices an `[M, 1]` column, result `[R, M]`;
    result column `m` is the operand's column at start index `m`. -/
private abbrev colDims (R N M : Nat)
    (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

/-- Entry `(d, m)` of the gathered columns is the operand at row `d` and at the column the `m`-th start index names,
    read signed and clamped into `0 … N - 1`. -/
private theorem gather_cols_apply {R N M w : Nat} (hN : 0 < N)
    (wf : GatherDims.WF ⟨2, ![R, N]⟩ ⟨2, ![M, 1]⟩ ⟨2, ![R, M]⟩ [0] [1] [] [1] [] 1 ![R, 1])
    (x : (⟨2, ![R, N]⟩ : Shape).Idx → α) (idx : IVec ⟨2, ![M, 1]⟩ w) (d : Fin R) (m : Fin M) :
    Host.gather (colDims R N M wf) x idx (ix2 d m)
      = x (ix2 d (clampIx N hN (idx (ix2 m (0 : Fin 1))))) := by
  unfold Host.gather
  congr 1
  funext a
  refine Fin.ext ?_
  match a with
  | ⟨0, _⟩ =>
    show (colDims R N M wf).start (ix2 d m) idx 0 + (colDims R N M wf).batchCoord (ix2 d m) 0
        + (colDims R N M wf).offCoord (ix2 d m) 0 = d.val
    rw [GatherDims.batchCoord_eq_zero _ _ _ List.not_mem_nil]
    unfold GatherDims.start GatherDims.offCoord
    have h01 : (0 : Fin 2) ∉ ([1] : List (Fin 2)) := by decide
    rw [dif_neg (show (0 : Fin 2) ∉ (colDims R N M wf).startIndexMap from h01),
      dif_pos ((GatherDims.mem_sKept _ _).mpr ⟨h01, List.not_mem_nil⟩)]
    simp only [Nat.zero_add, Nat.add_zero]
    rfl
  | ⟨1, _⟩ =>
    show (colDims R N M wf).start (ix2 d m) idx 1 + (colDims R N M wf).batchCoord (ix2 d m) 1
        + (colDims R N M wf).offCoord (ix2 d m) 1 = min (idx (ix2 m (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N M wf).startIndexMap from List.mem_singleton.mpr rfl)]
    have hsi : (colDims R N M wf).siIdx (ix2 d m) ⟨List.idxOf (1 : Fin 2) (colDims R N M wf).startIndexMap,
        List.idxOf_lt_length_iff.2 (List.mem_singleton.mpr rfl)⟩ = ix2 m (0 : Fin 1) := by
      funext b; refine Fin.ext ?_
      match b with
      | ⟨0, _⟩ => rfl
      | ⟨1, _⟩ => rfl
    rw [hsi]
    rfl

/-- The dimension numbers of "take whole rows": operand `[N, C]`, start indices an `[M, 1]` column, result `[M, C]`;
    result row `m` is the operand's row at start index `m`. -/
private abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry `(m, c)` of the gathered rows is the operand at column `c` and at the row the `m`-th start index names,
    read signed and clamped into `0 … N - 1`. -/
private theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (m : Fin M) (c : Fin C) :
    Host.gather (rowDims N C M wf) x idx (ix2 m c)
      = x (ix2 (clampIx N hN (idx (ix2 m (0 : Fin 1)))) c) := by
  unfold Host.gather
  congr 1
  funext a
  refine Fin.ext ?_
  match a with
  | ⟨0, _⟩ =>
    show (rowDims N C M wf).start (ix2 m c) idx 0 + (rowDims N C M wf).batchCoord (ix2 m c) 0
        + (rowDims N C M wf).offCoord (ix2 m c) 0 = min (idx (ix2 m (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 m c) ⟨List.idxOf (0 : Fin 2) (rowDims N C M wf).startIndexMap,
        List.idxOf_lt_length_iff.2 (List.mem_singleton.mpr rfl)⟩ = ix2 m (0 : Fin 1) := by
      funext b; refine Fin.ext ?_
      match b with
      | ⟨0, _⟩ => rfl
      | ⟨1, _⟩ => rfl
    rw [hsi]
    rfl
  | ⟨1, _⟩ =>
    show (rowDims N C M wf).start (ix2 m c) idx 1 + (rowDims N C M wf).batchCoord (ix2 m c) 1
        + (rowDims N C M wf).offCoord (ix2 m c) 1 = c.val
    rw [GatherDims.batchCoord_eq_zero _ _ _ List.not_mem_nil]
    unfold GatherDims.start GatherDims.offCoord
    have h10 : (1 : Fin 2) ∉ ([0] : List (Fin 2)) := by decide
    rw [dif_neg (show (1 : Fin 2) ∉ (rowDims N C M wf).startIndexMap from h10),
      dif_pos ((GatherDims.mem_sKept _ _).mpr ⟨h10, List.not_mem_nil⟩)]
    simp only [Nat.zero_add, Nat.add_zero]
    rfl

end Gathers

/-! ### A pad that only appends, read inside the operand -/

/-- Below the operand's length a vector padded at its end only reads the operand. -/
private theorem pad_end_apply {α : Type} {n N : Nat} (hi : Fin 1 → Nat) (x : (⟨1, ![n]⟩ : Shape).Idx → α) {u : Shape}
    (v : u.Idx → α) (h : (⟨1, ![n]⟩ : Shape).Pads ![0] hi ![0] ⟨1, ![N]⟩) (hu : 0 < u.numel) (m : Fin N) (hm : m.val < n) :
    pad ⟨1, ![N]⟩ ![0] hi ![0] x v h hu (ix1 m) = x (ix1 ⟨m.val, hm⟩) := by
  unfold pad
  split
  · next hin =>
    congr 1
    funext a
    obtain rfl : a = 0 := Subsingleton.elim _ _
    refine Fin.ext ?_
    show (m.val - 0) / (0 + 1) = m.val
    omega
  · next hnot =>
    refine absurd (fun a => ?_) hnot
    obtain rfl : a = 0 := Subsingleton.elim _ _
    refine ⟨Nat.zero_le _, ?_, ?_⟩
    · show (m.val - 0) % (0 + 1) = 0
      omega
    · show (m.val - 0) / (0 + 1) < n
      omega

/-! ### An `and` over an axis of extent one -/

/-- A left fold by `and` from 1 over words that are all 1 is 1. -/
private theorem foldl_andi_ones {ι : Type} (f : ι → BitVec 1) :
    ∀ l : List ι, (∀ i ∈ l, f i = 1#1) → l.foldl (fun r i => IntOp.andi r (f i)) 1#1 = 1#1
  | [], _ => rfl
  | a :: l, hl => by
    rw [List.foldl_cons, hl a (List.mem_cons_self ..)]
    exact foldl_andi_ones f l fun i hi => hl i (List.mem_cons_of_mem _ hi)

/-- Reducing an `[n, 1]` column of bits by `and` along its unit axis, from 1, gives at `m` the bit at `(m, 0)` when
    that bit is 1. -/
private theorem reduce_andi_col {n : Nat} (P : IVec ⟨2, ![n, 1]⟩ 1) {u : Shape} (init : u.Idx → BitVec 1)
    (h' : (⟨2, ![n, 1]⟩ : Shape).ReducesTo [1] ⟨1, ![n]⟩) (hu : 0 < u.numel) (m : Fin n)
    (hinit : init (Shape.Idx.first hu) = 1#1) (hP : P (ix2 m (0 : Fin 1)) = 1#1) :
    Host.reduce IntOp.andi P init h' hu (ix1 m) = 1#1 := by
  rw [Host.reduce_eq_foldl, hinit]
  refine foldl_andi_ones P _ fun i hi => ?_
  have hd : h'.drop i = ix1 m := by simpa using (List.mem_filter.1 hi).2
  have h0 : (i 0).val = m.val := by
    have hv : (h'.drop i 0 : Nat) = i 0 := rfl
    rw [hd] at hv
    exact hv.symm
  have h1 : (i 1).val = 0 := by have := idx2_lt1 i; omega
  have hi' : i = ix2 m (0 : Fin 1) := by
    funext a
    match a with
    | ⟨0, _⟩ => exact Fin.ext h0
    | ⟨1, _⟩ => exact Fin.ext h1
  rw [hi']; exact hP

/-! ### The two programs' label handling, read at an index -/

/-- The sources' row at `n` is entry `(0, n)` of the label pairs. -/
private theorem lblRow0_apply (e : IVec S2x500000 32) (n : Fin 500000) :
    lblRow0 e (ix1 n) = e (ix2 (0 : Fin 2) n) := by
  unfold lblRow0
  refine (shapeCast_apply _ _ (ix1 n) (ix2 (0 : Fin 1) n) ?_).trans ?_
  · rw [Shape.rowMajor_val_two, Shape.rowMajor_val_one]
    show 0 * 500000 + n.val = n.val
    omega
  · exact extractStridedSlice_apply _ _ _ _ (ix2 (0 : Fin 2) n) fun a => match a with
      | ⟨0, _⟩ => rfl
      | ⟨1, _⟩ => (Nat.zero_add _).symm

/-- The targets' row at `n` is entry `(1, n)` of the label pairs. -/
private theorem lblRow1_apply (e : IVec S2x500000 32) (n : Fin 500000) :
    lblRow1 e (ix1 n) = e (ix2 (1 : Fin 2) n) := by
  unfold lblRow1
  refine (shapeCast_apply _ _ (ix1 n) (ix2 (0 : Fin 1) n) ?_).trans ?_
  · rw [Shape.rowMajor_val_two, Shape.rowMajor_val_one]
    show 0 * 500000 + n.val = n.val
    omega
  · exact extractStridedSlice_apply _ _ _ _ (ix2 (1 : Fin 2) n) fun a => match a with
      | ⟨0, _⟩ => rfl
      | ⟨1, _⟩ => (Nat.zero_add _).symm

/-- The padding only appends: below 500000 the padded vector is the vector. -/
private theorem padded_apply (v : IVec S500000 32) (m : Fin 507904) (hm : m.val < 500000) :
    padded v (ix1 m) = v (ix1 ⟨m.val, hm⟩) := by
  unfold padded
  exact pad_end_apply _ _ _ _ _ m hm

/-- The column of start indices at `(m, 0)` is the wrapped node number `m`. -/
private theorem startCol_apply (v : IVec S507904 32) (m : Fin 507904) :
    startCol v (ix2 m (0 : Fin 1)) = wrapW (v (ix1 m)) := by
  unfold startCol
  exact broadcastInDim_apply _ _ _ _ (ix1 m) fun a => match a with | ⟨0, _⟩ => rfl

/-- A wrapped node number in `0 … 99999` passes both range tests, so its mask bit is set. -/
private theorem inRange_apply (v : IVec S507904 32) (m : Fin 507904)
    (h : 0 ≤ (wrapW (v (ix1 m))).toInt ∧ (wrapW (v (ix1 m))).toInt ≤ 99999) : inRange v (ix1 m) = 1#1 := by
  unfold inRange
  refine reduce_andi_col _ _ _ _ m rfl ?_
  show IntOp.andi (IntOp.cmpi .sge (startCol v (ix2 m (0 : Fin 1))) 0#32)
    (IntOp.cmpi .sle (startCol v (ix2 m (0 : Fin 1))) 99999#32) = 1#1
  rw [startCol_apply]
  have hk : (99999#32 : BitVec 32).toInt = 99999 := by decide
  exact IntOp.andi_eq_one.mpr ⟨IntOp.cmpi_sge.mpr (by simpa using h.1), IntOp.cmpi_sle.mpr (by rw [hk]; exact h.2)⟩

/-- The feature-major embeddings at `(d, r)` are the embeddings at `(r, d)`. -/
private theorem featMajor_apply (z : FVec Ideal S100000x64 .f32) (d : Fin 64) (r : Fin 100000) :
    featMajor z (ix2 d r) = z (ix2 r d) := by
  unfold featMajor
  exact transpose_apply _ _ _ _ (ix2 r d) fun b => match b with
    | ⟨0, _⟩ => rfl
    | ⟨1, _⟩ => rfl

/-- Where the wrapped node number is in range the mask is set, the fill is not read, and column `m` of the taken
    columns is the operand's column at the wrapped number (the clamp named but idle). -/
private theorem takeCols_apply (zt : FVec Ideal S64x100000 .f32) (v : IVec S507904 32) (d : Fin 64) (m : Fin 507904)
    (h : 0 ≤ (wrapW (v (ix1 m))).toInt ∧ (wrapW (v (ix1 m))).toInt ≤ 99999) :
    takeCols zt v (ix2 d m) = zt (ix2 d (clampIx 100000 (by decide) (wrapW (v (ix1 m))))) := by
  unfold takeCols
  rw [select_apply]
  have hb : broadcastInDim S64x507904 ![1] bcast_S507904_S64x507904_1 (inRange v) (ix2 d m) = inRange v (ix1 m) :=
    broadcastInDim_apply _ _ _ _ (ix1 m) fun a => match a with | ⟨0, _⟩ => rfl
  rw [hb, inRange_apply v m h, select_one]
  refine (gather_cols_apply (by decide) _ zt (startCol v) d m).trans ?_
  rw [startCol_apply]

/-- The kernel's operand column for pair `n`: row `wrap (v n)` of the embeddings. -/
private theorem kernelCol_apply (z : FVec Ideal S100000x64 .f32) (v : IVec S500000 32) (n : Fin 500000) (d : Fin 64)
    (h : 0 ≤ (wrapW (v (ix1 n))).toInt ∧ (wrapW (v (ix1 n))).toInt ≤ 99999) :
    takeCols (featMajor z) (padded v) (ix2 d (⟨n.val, Nat.lt_trans n.isLt (by decide)⟩ : Fin 507904))
      = z (ix2 (clampIx 100000 (by decide) (wrapW (v (ix1 n)))) d) := by
  have hp : padded v (ix1 (⟨n.val, Nat.lt_trans n.isLt (by decide)⟩ : Fin 507904)) = v (ix1 n) :=
    padded_apply v _ n.isLt
  rw [takeCols_apply _ _ _ _ (by rw [hp]; exact h), hp, featMajor_apply]

/-- The reference's operand row for pair `n`: the same row of the embeddings. -/
private theorem takeRows_apply (z : FVec Ideal S100000x64 .f32) (v : IVec S500000 32) (n : Fin 500000) (d : Fin 64) :
    takeRows z v (ix2 n d) = z (ix2 (clampIx 100000 (by decide) (wrapW (v (ix1 n)))) d) := by
  unfold takeRows
  refine (gather_rows_apply (by decide) _ z _ n d).trans ?_
  have hs : broadcastInDim Cert.ReferenceIdeal.S500000x1 ![0] Cert.ReferenceIdeal.Facts₀.bcast_S500000_S500000x1_0 (wrapLbl v)
      (ix2 n (0 : Fin 1)) = wrapW (v (ix1 n)) :=
    broadcastInDim_apply _ _ _ _ (ix1 n) fun a => match a with | ⟨0, _⟩ => rfl
  rw [hs]

/-! ### The two sums -/

theorem tail_eq (z : FVec Ideal S100000x64 .f32) (e : IVec S2x500000 32)
    (he : ∀ i : S2x500000.Idx, (-100000 : Int) ≤ (e i).toInt ∧ (e i).toInt < 100000) :
    kernelScores z e = referenceScores z e := by
  funext j
  obtain ⟨n, rfl⟩ : ∃ n : Fin 500000, j = ix1 n := ⟨j 0, eq_ix1 j⟩
  -- both wrapped labels of pair `n` are node numbers in range
  have hs : 0 ≤ (wrapW (lblRow0 e (ix1 n))).toInt ∧ (wrapW (lblRow0 e (ix1 n))).toInt ≤ 99999 := by
    rw [lblRow0_apply]; exact wrapW_range _ (he _)
  have ht : 0 ≤ (wrapW (lblRow1 e (ix1 n))).toInt ∧ (wrapW (lblRow1 e (ix1 n))).toInt ≤ 99999 := by
    rw [lblRow1_apply]; exact wrapW_range _ (he _)
  -- the kernel: entry `(0, n)` of the decoder's result, a sum over the 64 features of products of two rows of `z`
  have hL : kernelScores z e (ix1 n)
      = ∑ d : Fin 64, z (ix2 (clampIx 100000 (by decide) (wrapW (lblRow0 e (ix1 n)))) d)
          * z (ix2 (clampIx 100000 (by decide) (wrapW (lblRow1 e (ix1 n)))) d) := by
    unfold kernelScores
    refine (shapeCast_apply _ _ (ix1 n) (ix2 (0 : Fin 1) n) ?_).trans ?_
    · rw [Shape.rowMajor_val_two, Shape.rowMajor_val_one]
      show 0 * 500000 + n.val = n.val
      omega
    refine (extractStridedSlice_apply _ _ _ _
      (ix2 (0 : Fin 1) (⟨n.val, Nat.lt_trans n.isLt (by decide)⟩ : Fin 507904)) fun a => match a with
        | ⟨0, _⟩ => rfl
        | ⟨1, _⟩ => (Nat.zero_add _).symm).trans ?_
    show ∑ d : Fin 64, takeCols (featMajor z) (padded (lblRow0 e)) (ix2 d (⟨n.val, Nat.lt_trans n.isLt (by decide)⟩ : Fin 507904))
        * takeCols (featMajor z) (padded (lblRow1 e)) (ix2 d (⟨n.val, Nat.lt_trans n.isLt (by decide)⟩ : Fin 507904)) = _
    refine Finset.sum_congr rfl fun d _ => ?_
    rw [kernelCol_apply z _ n d hs, kernelCol_apply z _ n d ht]
  -- the reference: zero plus the sum over the 64 features of the products of the same two rows
  have hR : referenceScores z e (ix1 n)
      = ∑ d : Fin 64, z (ix2 (clampIx 100000 (by decide) (wrapW (lblRow0 e (ix1 n)))) d)
          * z (ix2 (clampIx 100000 (by decide) (wrapW (lblRow1 e (ix1 n)))) d) := by
    unfold referenceScores
    have hred : Cert.ReferenceIdeal.S500000x64.Reduces [1] S500000 := by decide
    show Ideal.hostReduceAdd Cert.ReferenceIdeal.Facts₀.reducesTo_S500000x64_S500000_d1 _ _ (ix1 n) = _
    rw [Ideal.hostReduceAdd_single _ hred]
    show Ideal.ofBits .f32 0x00000000#32
        + ∑ d : Fin 64, takeRows z (lblRow0 e) (hred.lift (ix1 n) d) * takeRows z (lblRow1 e) (hred.lift (ix1 n) d) = _
    rw [Ideal.ofBits_zero_f32, zero_add]
    refine Finset.sum_congr rfl fun d _ => ?_
    have hl : hred.lift (ix1 n) d = ix2 n d := funext fun c => Fin.ext (match c with
      | ⟨0, _⟩ => rfl
      | ⟨1, _⟩ => rfl)
    rw [hl, takeRows_apply, takeRows_apply]
  rw [hL, hR]

end Cert.Link

end
-- ==== Proof.LabelRange.lean ====
/-
  What the precondition says about the label pairs: its last two conjuncts are "every entry is at least -100000" and
  "every entry is below 100000", each an all-reduction of a signed compare against a constant.
-/
import proofs.«430394_j62371515072862_1_alg».proof.Pre_finite_inputs
import Idealize.ShloMosaic.PureOps.Ideal
import proofs.«430394_j62371515072862_1_alg».proof.Proof.Gen.Pre_finite_inputs
import Idealize.ShloMosaic.Lib.ReduceAll
import Idealize.ShloMosaic.Lib.StableHlo.Predicate

noncomputable section

namespace Cert.Link

open Idealize.ShloMosaic Idealize.ShloMosaic.TcCoe Idealize.SL.Sem
open Cert.Pre_finite_inputs

/-- The rank-0 shape has exactly one index. -/
private instance subsingleton_S_Idx : Subsingleton S_.Idx := ⟨fun a b => funext fun d => d.elim0⟩

/-- Where the printed precondition is all ones, every label is a valid node number (read as a signed integer). -/
theorem label_range (x : FVec Ideal S100000x256 .f32) (ei : IVec S2x1600000 32) (e : IVec S2x500000 32)
    (w1 : FVec Ideal S256x128 .f32) (b1 : FVec Ideal S128 .f32) (w2 : FVec Ideal S128x64 .f32) (b2 : FVec Ideal S64 .f32)
    (h : Cert.Pre_finite_inputs.fn (F := Ideal) x ei e w1 b1 w2 b2 = fun _ => 1#1) (i : S2x500000.Idx) :
    (-100000 : Int) ≤ (e i).toInt ∧ (e i).toInt < 100000 := by
  -- the precondition at its one index: a conjunction whose last two conjuncts are the two all-reductions on the labels
  have h0 : Cert.Pre_finite_inputs.fn (F := Ideal) x ei e w1 b1 w2 b2 (fun d => d.elim0) = 1#1 := congrFun h _
  unfold Cert.Pre_finite_inputs.fn Cert.Pre_finite_inputs.fn_part1 at h0
  obtain ⟨h1, hlt⟩ := IntOp.andi_eq_one.1 h0
  obtain ⟨-, hge⟩ := IntOp.andi_eq_one.1 h1
  -- an all-reduction by "and" that is 1 had a 1 at every entry, in particular at entry i
  have hgei := Host.reduce_andi_all _ _ _ _ _ hge i
  have hlti := Host.reduce_andi_all _ _ _ _ _ hlt i
  -- a signed compare that is 1 is the inequality of the signed values; the constants are -100000 and 100000
  have hlo : (4294867296#32 : BitVec 32).toInt = -100000 := by decide
  have hhi : (100000#32 : BitVec 32).toInt = 100000 := by decide
  refine ⟨?_, ?_⟩
  · have := IntOp.cmpi_sge.1 hgei
    rw [← hlo]; exact this
  · have := IntOp.cmpi_slt.1 hlti
    rw [← hhi]; exact this

end Cert.Link

end
-- ==== Proof.lean ====
/-
  A two-layer graph convolution followed by an inner-product decoder, as a Pallas program, against its jnp reference,
  over the extended reals.

  Both programs compute the node embeddings `z = embed x edges w1 b1 w2 b2` with the SAME host operations (edge ends with
  self-loops, inverse-root degrees, gather, weigh, scatter-add, bias, `max(·, 0)`) around two dense products. The kernel
  program forms each product tile by tile (2000 rows at a time, the whole contracted axis at once, operands rounded to a
  narrower format on the way in — the identity at exact arithmetic); the reference forms it in one `dot_general`. Both are
  the finite sums `mm256`, `mm128` (modules Matmul0, Matmul1, DotIsSum).

  For the label pairs the kernel program transposes `z`, pads the pairs to 507904, reads columns (an out-of-range node
  number would be filled with a not-a-number pattern), and its decoder sums products over the 64 features, tile by tile
  (module Decode2); the reference reads rows (an out-of-range number would be clamped), multiplies and sums. The two
  differ exactly where a label is not a valid node number, which the precondition excludes: it asks, beside finite float
  inputs (never used), that every label pair entry `e` satisfies `-100000 ≤ e < 100000` (module LabelRange), and under
  that range the two decoders agree (module Tail).

  The kernel program's run with its result named is the launch theorem over the generated segments (module RunK); its
  buffers are read back through the host stretches and the three regions to the launch memory (modules FoldA, FoldB,
  FoldC). The reference's run is its generated run (module RefRun) with its result term restated (module RefValue).
  The three frame claims are the generated frames; the idealization rewrote nothing, so `preserves` is `True`.
-/
import proofs.«430394_j62371515072862_1_alg».proof.Defs
import proofs.«430394_j62371515072862_1_alg».proof.Proof.Gen.Kernel
import proofs.«430394_j62371515072862_1_alg».proof.Proof.Gen.Kernel.Frame
import proofs.«430394_j62371515072862_1_alg».proof.Proof.Gen.KernelIdeal
import proofs.«430394_j62371515072862_1_alg».proof.Proof.Gen.KernelIdeal.Frame
import proofs.«430394_j62371515072862_1_alg».proof.Proof.Gen.ReferenceIdeal
import proofs.«430394_j62371515072862_1_alg».proof.Proof.Gen.Pre_finite_inputs
import proofs.«430394_j62371515072862_1_alg».proof.Proof.RunK
import proofs.«430394_j62371515072862_1_alg».proof.Proof.RefRun
import proofs.«430394_j62371515072862_1_alg».proof.Proof.FoldC
import proofs.«430394_j62371515072862_1_alg».proof.Proof.RefValue
import proofs.«430394_j62371515072862_1_alg».proof.Proof.Tail
import proofs.«430394_j62371515072862_1_alg».proof.Proof.LabelRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the kernel's scores of the embeddings: the kernel program by its run and the reading of its
    buffers, the reference by its run, its result restated, and the agreement of the two decoders on valid labels. -/
theorem algebraic : Cert.algebraic_KernelIdeal_ReferenceIdeal := by
  intro m ρ m' ρ' hpre hagree
  refine ⟨fun c => Cert.Link.kernelScores
      (Cert.Link.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Link.W18_v106 m ρ c), (h c).2⟩)
      (Cert.KernelIdeal.GenV.run_result (F := Ideal) m ρ)
  · refine (θ_run Cert.ReferenceIdeal.defs _ _).mono (fun r h c => ⟨(h c).1.trans ?_, (h c).2⟩)
      (Cert.ReferenceIdeal.RunP.run (F := Ideal) m' ρ')
    rw [Cert.Link.ref_result m' c, (hagree c).1, (hagree c).2.1, (hagree c).2.2.1, (hagree c).2.2.2.1,
      (hagree c).2.2.2.2.1, (hagree c).2.2.2.2.2.1, (hagree c).2.2.2.2.2.2]
    exact (Cert.Link.tail_eq _ _ (fun i => Cert.Link.label_range _ _ _ _ _ _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
